-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S_ : Shape := ⟨0, ![]⟩
abbrev S1024 : Shape := ⟨1, ![1024]⟩
abbrev S65536x1 : Shape := ⟨2, ![65536, 1]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536 : S_.BroadcastsInDim S65536 (![] : Fin 0 → Fin S65536.rank)
  bcast_S_S1024 : S_.BroadcastsInDim S1024 (![] : Fin 0 → Fin S1024.rank)
  bcast_S65536_S65536x1_0 : S65536.BroadcastsInDim S65536x1 (![0] : Fin 1 → Fin S65536x1.rank)
  reducesTo_S1024_S_d0 : S1024.ReducesTo [0] S_
  scatter_S1024_S65536x1_S65536_n_0_0_1_wf : ScatterDims.WF S1024 S65536x1 S65536 [] [0] [0] 1

variable [Facts]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def fn {F : FTy → Type} [FloatOps F] (main_arg0 : FVec F S65536x128 .f32) (main_arg1 : IVec S65536 32) (main_arg2 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_cst_0 : FVec F S_ .f32 := constant S_ .f32 0x3F800000#32
  let main_v4 : FVec F S65536 .f32 := broadcastInDim S65536 ![] bcast_S_S65536 main_cst_0
  let main_cst_1 : FVec F S_ .f32 := constant S_ .f32 0x00000000#32
  let main_v5 : FVec F S1024 .f32 := broadcastInDim S1024 ![] bcast_S_S1024 main_cst_1
  let main_v6 : IVec S65536x1 32 := broadcastInDim S65536x1 ![0] bcast_S65536_S65536x1_0 main_arg1
  let main_v7 : FVec F S1024 .f32 := (fun x i u => Host.scatterAdd scatter_S1024_S65536x1_S65536_n_0_0_1 x i u) main_v5 main_v6 main_v4
  let main_cst_2 : FVec F S_ .f32 := constant S_ .f32 0x00000000#32
  let main_v8 : FVec F S1024 .f32 := broadcastInDim S1024 ![] bcast_S_S1024 main_cst_2
  let main_v9 : IVec S1024 1 := cmpf .ogt main_v7 main_v8
  let main_c_3 : IVec S_ 1 := constantI S_ 1 1#1
  let main_v10 : IVec S_ 1 := (fun x v => Host.reduce IntOp.andi x v reducesTo_S1024_S_d0 h_S_) main_v9 main_c_3
  let main_v11 : IVec S_ 1 := andi main_v3 main_v10
  main_v11
-- ==== Kernel.lean ====
abbrev S65536x128 : Shape := ⟨2, ![65536, 128]⟩
abbrev S65536 : Shape := ⟨1, ![65536]⟩
abbrev S_ : Shape := ⟨0, ![]⟩
abbrev S1024 : Shape := ⟨1, ![1024]⟩
abbrev S65536x1 : Shape := ⟨2, ![65536, 1]⟩
abbrev S1024x128 : Shape := ⟨2, ![1024, 128]⟩
abbrev S1024x1 : Shape := ⟨2, ![1024, 1]⟩
abbrev S128x1024 : Shape := ⟨2, ![128, 1024]⟩
abbrev S1x1024 : Shape := ⟨2, ![1, 1024]⟩
abbrev S1024x1024 : Shape := ⟨2, ![1024, 1024]⟩

abbrev nBuf : Space → Nat
  | .hbm => 59
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S65536, .i32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S1024, .f32⟩
  | .hbm, ⟨7, _⟩ => ⟨S65536x1, .i32⟩
  | .hbm, ⟨8, _⟩ => ⟨S1024, .f32⟩
  | .hbm, ⟨9, _⟩ => ⟨S_, .f32⟩
  | .hbm, ⟨10, _⟩ => ⟨S1024x128, .f32⟩
  | .hbm, ⟨11, _⟩ => ⟨S65536x1, .i32⟩
  | .hbm, ⟨12, _⟩ => ⟨S1024x128, .f32⟩
  | .hbm, ⟨13, _⟩ => ⟨S1024x1, .f32⟩
  | .hbm, ⟨14, _⟩ => ⟨S1024x128, .f32⟩
  | .hbm, ⟨15, _⟩ => ⟨S1024x128, .f32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S1024, .i32⟩
  | .hbm, ⟨27, _⟩ => ⟨S_, .f32⟩
  | .hbm, ⟨28, _⟩ => ⟨S1024, .f32⟩
  | .hbm, ⟨29, _⟩ => ⟨S1024, .i1⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x128, .f32⟩
  | .hbm, ⟨40, _⟩ => ⟨S_, .f32⟩
  | .hbm, ⟨41, _⟩ => ⟨S1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S65536x1, .i32⟩
  | .hbm, ⟨50, _⟩ => ⟨S65536x1, .i32⟩
  | .hbm, ⟨51, _⟩ => ⟨S1x1024, .i32⟩
  | .hbm, ⟨52, _⟩ => ⟨S1x1024, .f32⟩
  | .hbm, ⟨53, _⟩ => ⟨S1x1024, .f32⟩
  | .hbm, ⟨54, _⟩ => ⟨S65536x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .i32⟩
  | .local _ .vmem, ⟨6, _⟩ => ⟨S1024x1, .i32⟩
  | .local _ .vmem, ⟨7, _⟩ => ⟨S1024x1, .i32⟩
  | .local _ .vmem, ⟨8, _⟩ => ⟨S1024x1, .i32⟩
  | .local _ .vmem, ⟨9, _⟩ => ⟨S1024x1, .i32⟩
  | .local _ .vmem, ⟨10, _⟩ => ⟨S1024x1, .f32⟩
  | .local _ .vmem, ⟨11, _⟩ => ⟨S1024x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S65536 : S_.BroadcastsInDim S65536 (![] : Fin 0 → Fin S65536.rank)
  bcast_S_S1024 : S_.BroadcastsInDim S1024 (![] : Fin 0 → Fin S1024.rank)
  bcast_S65536_S65536x1_0 : S65536.BroadcastsInDim S65536x1 (![0] : Fin 1 → Fin S65536x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  reducesTo_S1024x128_S1024_d1 : S1024x128.ReducesTo [1] S1024
  h_S_ : 0 < S_.numel
  transposes_S1024x128_S128x1024_1_0 : S1024x128.Transposes [1, 0] S128x1024
  bcast_S_S128x1024 : S_.BroadcastsInDim S128x1024 (![] : Fin 0 → Fin S128x1024.rank)
  shapeCasts_S65536_S65536x1 : S65536.ShapeCasts S65536x1
  shapeCasts_S1024_S1x1024 : S1024.ShapeCasts S1x1024
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  reduces_S1024x1024_S1024 : S1024x1024.Reduces [1] S1024
  reducesTo_S65536x1_S_d0_1 : S65536x1.ReducesTo [0, 1] S_
  scatter_S1024_S65536x1_S65536_n_0_0_1_wf : ScatterDims.WF S1024 S65536x1 S65536 [] [0] [0] 1
  scatter_S1024x128_S65536x1_S65536x128_1_0_0_1_wf : ScatterDims.WF S1024x128 S65536x1 S65536x128 [1] [0] [0] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .i32 = 32 ∨ (Rect.block (s := S1x1024) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S65536x1.size a
  hwx0_5 : ∀ i : grid0.Coords, EltTy.bits .i32 = 32 ∨ (Rect.block (s := S65536x1) S1024x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S65536x1.size a
  hwx0_6 : ∀ i : grid0.Coords, EltTy.bits .i32 = 32 ∨ (Rect.block (s := S65536x1) S1024x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S65536x1.size a
  hwx0_7 : ∀ i : grid0.Coords, EltTy.bits .f32 = 32 ∨ (Rect.block (s := S65536x1) S1024x1.size (cc0_transform_7 i) (hinb0_7 i)).WholeWords (EltTy.packing .f32)

variable [Facts₀]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def scatter_S1024x128_S65536x1_S65536x128_1_0_0_1 : ScatterDims S1024x128 S65536x1 S65536x128 where
  updateWindowDims := [1]
  insertedWindowDims := [0]
  scatterDimsToOperandDims := [0]
  indexVectorDim := 1
  wf := scatter_S1024x128_S65536x1_S65536x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536 : Shape := ⟨1, ![65536]⟩
abbrev S_ : Shape := ⟨0, ![]⟩
abbrev S1024 : Shape := ⟨1, ![1024]⟩
abbrev S65536x1 : Shape := ⟨2, ![65536, 1]⟩
abbrev S1024x128 : Shape := ⟨2, ![1024, 128]⟩
abbrev S1024x1 : Shape := ⟨2, ![1024, 1]⟩
abbrev S1x1024 : Shape := ⟨2, ![1, 1024]⟩
abbrev S65536x1024 : Shape := ⟨2, ![65536, 1024]⟩
abbrev S128x1024 : Shape := ⟨2, ![128, 1024]⟩

abbrev nBuf : Space → Nat
  | .hbm => 119
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S65536, .i32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S1024, .f32⟩
  | .hbm, ⟨7, _⟩ => ⟨S65536x1, .i32⟩
  | .hbm, ⟨8, _⟩ => ⟨S1024, .f32⟩
  | .hbm, ⟨9, _⟩ => ⟨S_, .f32⟩
  | .hbm, ⟨10, _⟩ => ⟨S1024x128, .f32⟩
  | .hbm, ⟨11, _⟩ => ⟨S65536x1, .i32⟩
  | .hbm, ⟨12, _⟩ => ⟨S1024x128, .f32⟩
  | .hbm, ⟨13, _⟩ => ⟨S1024x1, .f32⟩
  | .hbm, ⟨14, _⟩ => ⟨S1024x128, .f32⟩
  | .hbm, ⟨15, _⟩ => ⟨S1024x128, .f32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S1024, .i32⟩
  | .hbm, ⟨27, _⟩ => ⟨S65536x128, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S1024x128, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S128x1024, .f32⟩
  | .hbm, ⟨39, _⟩ => ⟨S65536x1024, .f32⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S1024, .f32⟩
  | .hbm, ⟨46, _⟩ => ⟨S1024, .i1⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S65536x1, .i32⟩
  | .hbm, ⟨57, _⟩ => ⟨S1024, .i32⟩
  | .hbm, ⟨58, _⟩ => ⟨S1x1024, .i32⟩
  | .hbm, ⟨59, _⟩ => ⟨S65536x1024, .i32⟩
  | .hbm, ⟨60, _⟩ => ⟨S65536x1024, .i32⟩
  | .hbm, ⟨61, _⟩ => ⟨S65536x1024, .i1⟩
  | .hbm, ⟨62, _⟩ => ⟨S1x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S_, .f32⟩
  | .hbm, ⟨69, _⟩ => ⟨S65536x1024, .f32⟩
  | .hbm, ⟨70, _⟩ => ⟨S65536x1024, .i1⟩
  | .hbm, ⟨71, _⟩ => ⟨S1x1024, .i32⟩
  | .hbm, ⟨72, _⟩ => ⟨S65536x1, .i32⟩
  | .hbm, ⟨73, _⟩ => ⟨S65536x1024, .i32⟩
  | .hbm, ⟨74, _⟩ => ⟨S65536x1024, .i32⟩
  | .hbm, ⟨75, _⟩ => ⟨S65536x1024, .i1⟩
  | .hbm, ⟨76, _⟩ => ⟨S65536x1024, .i1⟩
  | .hbm, ⟨77, _⟩ => ⟨S_, .f32⟩
  | .hbm, ⟨78, _⟩ => ⟨S_, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536, .f32⟩
  | .hbm, ⟨83, _⟩ => ⟨S_, .f32⟩
  | .hbm, ⟨84, _⟩ => ⟨S_, .f32⟩
  | .hbm, ⟨85, _⟩ => ⟨S65536x1024, .f32⟩
  | .hbm, ⟨86, _⟩ => ⟨S65536x1024, .f32⟩
  | .hbm, ⟨87, _⟩ => ⟨S_, .f32⟩
  | .hbm, ⟨88, _⟩ => ⟨S65536, .f32⟩
  | .hbm, ⟨89, _⟩ => ⟨S65536, .f32⟩
  | .hbm, ⟨90, _⟩ => ⟨S_, .f32⟩
  | .hbm, ⟨91, _⟩ => ⟨S65536, .f32⟩
  | .hbm, ⟨92, _⟩ => ⟨S65536, .f32⟩
  | .hbm, ⟨93, _⟩ => ⟨S65536x1, .f32⟩
  | .hbm, ⟨94, _⟩ => ⟨S65536x1024, .f32⟩
  | .hbm, ⟨95, _⟩ => ⟨S65536x1024, .f32⟩
  | .hbm, ⟨96, _⟩ => ⟨S_, .f32⟩
  | .hbm, ⟨97, _⟩ => ⟨S65536x1024, .f32⟩
  | .hbm, ⟨98, _⟩ => ⟨S65536x1024, .f32⟩
  | .hbm, ⟨99, _⟩ => ⟨S65536x1024, .f32⟩
  | .hbm, ⟨100, _⟩ => ⟨S_, .f32⟩
  | .hbm, ⟨101, _⟩ => ⟨S_, .f32⟩
  | .hbm, ⟨102, _⟩ => ⟨S65536x1024, .f32⟩
  | .hbm, ⟨103, _⟩ => ⟨S65536x1024, .f32⟩
  | .hbm, ⟨104, _⟩ => ⟨S_, .f32⟩
  | .hbm, ⟨105, _⟩ => ⟨S65536, .f32⟩
  | .hbm, ⟨106, _⟩ => ⟨S_, .f32⟩
  | .hbm, ⟨107, _⟩ => ⟨S_, .f32⟩
  | .hbm, ⟨108, _⟩ => ⟨S65536x1024, .f32⟩
  | .hbm, ⟨109, _⟩ => ⟨S65536x1024, .f32⟩
  | .hbm, ⟨110, _⟩ => ⟨S_, .f32⟩
  | .hbm, ⟨111, _⟩ => ⟨S65536, .f32⟩
  | .hbm, ⟨112, _⟩ => ⟨S65536, .f32⟩
  | .hbm, ⟨113, _⟩ => ⟨S65536, .f32⟩
  | .hbm, ⟨114, _⟩ => ⟨S65536, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_call2_v0 : Ref sig .tc := ⟨.hbm, 78, rfl⟩
abbrev main_call2_v1 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_call3_v0 : Ref sig .tc := ⟨.hbm, 84, rfl⟩
abbrev main_call3_v1 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_17 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_18 : Ref sig .tc := ⟨.hbm, 100, rfl⟩
abbrev main_call4_v0 : Ref sig .tc := ⟨.hbm, 101, rfl⟩
abbrev main_call4_v1 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_cst_20 : Ref sig .tc := ⟨.hbm, 106, rfl⟩
abbrev main_call5_v0 : Ref sig .tc := ⟨.hbm, 107, rfl⟩
abbrev main_call5_v1 : Ref sig .tc := ⟨.hbm, 108, rfl⟩
abbrev main_v71 : Ref sig .tc := ⟨.hbm, 109, rfl⟩
abbrev main_cst_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_cst_23 : Ref sig .tc := ⟨.hbm, 117, rfl⟩
abbrev main_v77 : Ref sig .tc := ⟨.hbm, 118, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1024 : S_.BroadcastsInDim S1024 (![] : Fin 0 → Fin S1024.rank)
  bcast_S65536_S65536x1_0 : S65536.BroadcastsInDim S65536x1 (![0] : Fin 1 → Fin S65536x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  reducesTo_S65536x128_S65536_d1 : S65536x128.ReducesTo [1] S65536
  h_S_ : 0 < S_.numel
  reducesTo_S1024x128_S1024_d1 : S1024x128.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x128_S128x1024_1_0 : S1024x128.Transposes [1, 0] S128x1024
  bcast_S_S65536x1024 : S_.BroadcastsInDim S65536x1024 (![] : Fin 0 → Fin S65536x1024.rank)
  reducesTo_S65536x1024_S65536_d1 : S65536x1024.ReducesTo [1] S65536
  reducesTo_S65536_S_d0 : S65536.ReducesTo [0] S_
  scatter_S1024_S65536x1_S65536_n_0_0_1_wf : ScatterDims.WF S1024 S65536x1 S65536 [] [0] [0] 1
  scatter_S1024x128_S65536x1_S65536x128_1_0_0_1_wf : ScatterDims.WF S1024x128 S65536x1 S65536x128 [1] [0] [0] 1
  dot_S65536x128_S128x1024_S65536x1024_1_0_0_1_n_n_wf : DotDims.WF S65536x128 S128x1024 S65536x1024 [1] [0] [0] [1] [] []

variable [Facts₀]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def scatter_S1024x128_S65536x1_S65536x128_1_0_0_1 : ScatterDims S1024x128 S65536x1 S65536x128 where
  updateWindowDims := [1]
  insertedWindowDims := [0]
  scatterDimsToOperandDims := [0]
  indexVectorDim := 1
  wf := scatter_S1024x128_S65536x1_S65536x128_1_0_0_1_wf
def dot_S65536x128_S128x1024_S65536x1024_1_0_0_1_n_n : DotDims S65536x128 S128x1024 S65536x1024 where
  lhsContracting := [1]
  rhsContracting := [0]
  lhsNonContracting := [0]
  rhsNonContracting := [1]
  lhsBatch := []
  rhsBatch := []
  wf := dot_S65536x128_S128x1024_S65536x1024_1_0_0_1_n_n_wf

class Facts : Prop extends Facts₀ where

variable [Facts]
-- ==== Proof.Spec.lean ====
/-
  The per-row loss of the cluster NCA objective, in the two arrangements the programs compute it in, over the
  extended reals.

  A row of the batch has a weighted squared distance `d k` to each of the 1024 cluster centers and a mask
  `same k` (the center's class is the row's). A center is VALID for the row when `d k > ε`. With
  `dmax`, `dmin` the largest and the smallest valid distance and `base` their midpoint, the loss is
  `-log (Σ_{valid, same} e_k / Σ_{valid} e_k)`, `e_k = exp (-16 · (d k - base))` (`refRow`).
  The other arrangement works with `s k = -16 · d k`: validity is `s k < -16 ε`, the extremes swap,
  the midpoint is `-16 · base`, and `e_k = exp (s k - base_s)` (`kerRow`).
  Float literals are kept as the words the programs print; their values are read in Proof/RowMath.lean.
-/
import Idealize.ShloMosaic.PureOps.Ideal
import Idealize.ShloMosaic.PureOps.Ideal.Laws

noncomputable section

namespace Cert.Nca

open Idealize.ShloMosaic

/-- The words of the float literals the two programs spell, as extended reals. -/
abbrev negInfW : EReal := Ideal.ofBits .f32 0xFF800000#32
abbrev posInfW : EReal := Ideal.ofBits .f32 0x7F800000#32
abbrev zeroW : EReal := Ideal.ofBits .f32 0x00000000#32
abbrev oneW : EReal := Ideal.ofBits .f32 0x3F800000#32
abbrev twoW : EReal := Ideal.ofBits .f32 0x40000000#32
abbrev halfW : EReal := Ideal.ofBits .f32 0x3F000000#32
abbrev w32W : EReal := Ideal.ofBits .f32 0x42000000#32
abbrev m16W : EReal := Ideal.ofBits .f32 0xC1800000#32
abbrev epsW : EReal := Ideal.ofBits .f32 0x3A83126F#32
abbrev m16epsW : EReal := Ideal.ofBits .f32 0xBC83126F#32
abbrev nW : EReal := Ideal.ofBits .f32 0x47800000#32

/-- The row's loss from its weighted squared distances `d` and its same-class mask, as the reference arranges it. -/
def refRow (d : Fin 1024 → EReal) (same : Fin 1024 → BitVec 1) : EReal :=
  let valid : Fin 1024 → BitVec 1 := fun k => Ideal.cmp .ogt (d k) epsW
  let dmax : EReal := (Finset.univ : Finset (Fin 1024)).fold max negInfW (fun k => Scalar.select (valid k) (d k) negInfW)
  let dmin : EReal := (Finset.univ : Finset (Fin 1024)).fold min posInfW (fun k => Scalar.select (valid k) (d k) posInfW)
  let base : EReal := halfW * (dmax + dmin)
  let e : Fin 1024 → EReal := fun k => Ideal.exp (m16W * (d k - base))
  let pos : EReal := (zeroW + ∑ k : Fin 1024, Scalar.select (IntOp.andi (valid k) (same k)) (e k) zeroW)
  let all : EReal := (zeroW + ∑ k : Fin 1024, Scalar.select (valid k) (e k) zeroW)
  (-(Ideal.log (Ideal.div pos all)))

/-- The row's loss from the rescaled distances `s = -16 · d` and the same-class mask, as the kernel arranges it. -/
def kerRow (s : Fin 1024 → EReal) (same : Fin 1024 → BitVec 1) : EReal :=
  let valid : Fin 1024 → BitVec 1 := fun k => Ideal.cmp .olt (s k) m16epsW
  let smax : EReal := (Finset.univ : Finset (Fin 1024)).fold max negInfW (fun k => Scalar.select (valid k) (s k) negInfW)
  let smin : EReal := (Finset.univ : Finset (Fin 1024)).fold min posInfW (fun k => Scalar.select (valid k) (s k) posInfW)
  let base : EReal := halfW * (smax + smin)
  let e : Fin 1024 → EReal := fun k => Ideal.exp (s k - base)
  let ev : Fin 1024 → EReal := fun k => Scalar.select (valid k) (e k) zeroW
  let pos : EReal := (∑ k : Fin 1024, Scalar.select (same k) (ev k) zeroW)
  let all : EReal := (∑ k : Fin 1024, ev k)
  (zeroW - Ideal.log (Ideal.div pos all))

/-- The weighted squared distance of a row `x` to a center `c`, as the reference computes it:
    `(|x|² + |c|² - 2 x·c) · w`. -/
def refDist (x c : Fin 128 → EReal) (w : EReal) : EReal :=
  (((zeroW + ∑ j : Fin 128, x j * x j) + (zeroW + ∑ j : Fin 128, c j * c j)) - twoW * (∑ j : Fin 128, x j * c j)) * w

/-- The rescaled distance as the kernel computes it from the prescaled center `32 · c` and norm `-16 · |c|²`:
    `(x·(32 c) + (-16) |x|² + (-16) |c|²) · w`. -/
def kerDist (x c : Fin 128 → EReal) (w : EReal) : EReal :=
  (((∑ j : Fin 128, x j * (w32W * c j)) + m16W * (∑ j : Fin 128, x j * x j)) + m16W * (zeroW + ∑ j : Fin 128, c j * c j)) * w

end Cert.Nca

end
-- ==== Proof.KerBlocks.lean ====
/-
  The kernel region's blocks, read: the grid has 64 points; point `t` reads rows `1024 t … 1024 t + 1023` of the inputs,
  of the cluster-id column and of the label column, and the whole prescaled centers, norms, weights and cluster labels;
  its one store covers its block of the loss column with the body's payload of those blocks.
-/
import proofs.«429627_j49503793054560_2_alg».proof.Proof.Gen.KernelIdeal.Frame
import proofs.«429627_j49503793054560_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.KerValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (the inputs, the two id columns, the loss column) are
    at block `(t, 0)`, the whole-array windows at block `(0, 0)`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The input blocks as entries of the arrays the region finds -/

/-- Row `p` of the inputs' block at point `t` is row `1024 t + p` of the inputs. -/
theorem iblk0_apply (c : Dev nD) (t : Fin cfg0.N) (p : Fin 1024) (j : Fin 128) (i : Fin 65536) (hi : i.val = 1024 * t.val + p.val) :
    (iblk m c 0 t : Vec Ideal S1024x128 .f32) (ix2 p j) = (V m c main_arg0 : S65536x128.Idx → EReal) (ix2 i j) := by
  obtain ⟨⟨h0, h1⟩, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = i.val; rw [h0, hi]; omega
  | ⟨1, _⟩ => show win0_0.index t (1 : Fin 2) * 128 + 1 * j.val = j.val; rw [h1]; omega

/-- The prescaled centers' block at any point is the whole array. -/
theorem iblk1_apply (c : Dev nD) (t : Fin cfg0.N) (j : Fin 128) (k : Fin 1024) :
    (iblk m c 1 t : Vec Ideal S128x1024 .f32) (ix2 j k) = (V m c main_v29 : S128x1024.Idx → EReal) (ix2 j k) := by
  obtain ⟨-, ⟨h0, h1⟩, -⟩ := idx_facts t
  unfold iblk
  rw [View.read_apply]
  show V m c main_v29 _ = V m c main_v29 _
  congr 1
  funext a
  apply Fin.ext
  match a with
  | ⟨0, _⟩ => show win0_1.index t (0 : Fin 2) * 128 + 1 * j.val = j.val; rw [h0]; omega
  | ⟨1, _⟩ => show win0_1.index t (1 : Fin 2) * 1024 + 1 * k.val = k.val; rw [h1]; omega

/-- The prescaled norms' block at any point is the whole row. -/
theorem iblk2_apply (c : Dev nD) (t : Fin cfg0.N) (k : Fin 1024) :
    (iblk m c 2 t : Vec Ideal S1x1024 .f32) (ix2 (0 : Fin 1) k) = (V m c main_v36 : S1x1024.Idx → EReal) (ix2 (0 : Fin 1) k) := by
  obtain ⟨-, -, ⟨h0, h1⟩, -⟩ := idx_facts t
  unfold iblk
  rw [View.read_apply]
  show V m c main_v36 _ = V m c main_v36 _
  congr 1
  funext a
  apply Fin.ext
  match a with
  | ⟨0, _⟩ => show win0_2.index t (0 : Fin 2) * 1 + 1 * 0 = 0; rw [h0]
  | ⟨1, _⟩ => show win0_2.index t (1 : Fin 2) * 1024 + 1 * k.val = k.val; rw [h1]; omega

/-- The weights' block at any point is the whole row. -/
theorem iblk3_apply (c : Dev nD) (t : Fin cfg0.N) (k : Fin 1024) :
    (iblk m c 3 t : Vec Ideal S1x1024 .f32) (ix2 (0 : Fin 1) k) = (V m c main_v35 : S1x1024.Idx → EReal) (ix2 (0 : Fin 1) k) := by
  obtain ⟨-, -, -, ⟨h0, h1⟩, -⟩ := idx_facts t
  unfold iblk
  rw [View.read_apply]
  show V m c main_v35 _ = V m c main_v35 _
  congr 1
  funext a
  apply Fin.ext
  match a with
  | ⟨0, _⟩ => show win0_3.index t (0 : Fin 2) * 1 + 1 * 0 = 0; rw [h0]
  | ⟨1, _⟩ => show win0_3.index t (1 : Fin 2) * 1024 + 1 * k.val = k.val; rw [h1]; omega

/-- The cluster labels' block at any point is the whole row. -/
theorem iblk4_apply (c : Dev nD) (t : Fin cfg0.N) (k : Fin 1024) :
    (iblk m c 4 t : Vec Ideal S1x1024 .i32) (ix2 (0 : Fin 1) k) = (V m c main_v34 : S1x1024.Idx → BitVec 32) (ix2 (0 : Fin 1) k) := by
  obtain ⟨-, -, -, -, ⟨h0, h1⟩, -⟩ := idx_facts t
  unfold iblk
  rw [View.read_apply]
  show V m c main_v34 _ = V m c main_v34 _
  congr 1
  funext a
  apply Fin.ext
  match a with
  | ⟨0, _⟩ => show win0_4.index t (0 : Fin 2) * 1 + 1 * 0 = 0; rw [h0]
  | ⟨1, _⟩ => show win0_4.index t (1 : Fin 2) * 1024 + 1 * k.val = k.val; rw [h1]; omega

/-- Row `p` of the cluster-id column's block at point `t` is row `1024 t + p` of the column. -/
theorem iblk5_apply (c : Dev nD) (t : Fin cfg0.N) (p : Fin 1024) (i : Fin 65536) (hi : i.val = 1024 * t.val + p.val) :
    (iblk m c 5 t : Vec Ideal S1024x1 .i32) (ix2 p (0 : Fin 1)) = (V m c main_v32 : S65536x1.Idx → BitVec 32) (ix2 i (0 : Fin 1)) := by
  obtain ⟨-, -, -, -, -, ⟨h0, h1⟩, -⟩ := idx_facts t
  unfold iblk
  rw [View.read_apply]
  show V m c main_v32 _ = V m c main_v32 _
  congr 1
  funext a
  apply Fin.ext
  match a with
  | ⟨0, _⟩ => show win0_5.index t (0 : Fin 2) * 1024 + 1 * p.val = i.val; rw [h0, hi]; omega
  | ⟨1, _⟩ => show win0_5.index t (1 : Fin 2) * 1 + 1 * 0 = 0; rw [h1]

/-- Row `p` of the label column's block at point `t` is row `1024 t + p` of the column. -/
theorem iblk6_apply (c : Dev nD) (t : Fin cfg0.N) (p : Fin 1024) (i : Fin 65536) (hi : i.val = 1024 * t.val + p.val) :
    (iblk m c 6 t : Vec Ideal S1024x1 .i32) (ix2 p (0 : Fin 1)) = (V m c main_v33 : S65536x1.Idx → BitVec 32) (ix2 i (0 : Fin 1)) := by
  obtain ⟨-, -, -, -, -, -, ⟨h0, h1⟩, -⟩ := idx_facts t
  unfold iblk
  rw [View.read_apply]
  show V m c main_v33 _ = V m c main_v33 _
  congr 1
  funext a
  apply Fin.ext
  match a with
  | ⟨0, _⟩ => show win0_6.index t (0 : Fin 2) * 1024 + 1 * p.val = i.val; rw [h0, hi]; omega
  | ⟨1, _⟩ => show win0_6.index t (1 : Fin 2) * 1 + 1 * 0 = 0; rw [h1]

/-! ## What the body leaves in the loss block -/

/-- The body's one store covers the block: the block after the body is the stored payload of the loaded blocks. -/
theorem out_eq (x0 : Vec Ideal S1024x128 .f32) (x1 : Vec Ideal S128x1024 .f32) (x2 x3 : Vec Ideal S1x1024 .f32)
    (x4 : Vec Ideal S1x1024 .i32) (x5 x6 : Vec Ideal S1024x1 .i32) :
    out0_7 (F := Ideal) x0 x1 x2 x3 x4 x5 x6
      = k0_pay1 (F := Ideal) (k0_pay2 x0 x1 x2 x5 x3) (k0_pay3 x0 x1 x2 x5 x3) (k0_pay4 (F := Ideal) x6 x4) (k0_pay5 x0 x1 x2 x5 x3) := by
  unfold out0_7
  rw [View.canon_unit_zero hz]
  simp only [View.ld_unit_zero (S := S1024x128) hz, View.ld_unit_zero (S := S128x1024) hz, View.ld_unit_zero (S := S1x1024) hz,
    View.ld_unit_zero (S := S1024x1) hz]

/-! ## One row of the loss block -/

/-- What point `t`'s body stores at row `p` of the loss block. -/
def rowAt (c : Dev nD) (t : Fin cfg0.N) (p : Fin 1024) : EReal :=
  (out0_7 (F := Ideal) (iblk m c 0 t) (iblk m c 1 t) (iblk m c 2 t) (iblk m c 3 t) (iblk m c 4 t) (iblk m c 5 t) (iblk m c 6 t)
    : Vec Ideal S1024x1 .f32) (ix2 p (0 : Fin 1))

end Cert.KernelIdeal.KerValue

end
-- ==== Proof.KerTail.lean ====
/-
  The host lines after the region: the result buffer holds the mean of the loss column the region leaves — the host's
  sum of the column over both axes from the zero literal, divided by the literal `65536.0`.
-/
import proofs.«429627_j49503793054560_2_alg».proof.Proof.Gen.KernelIdeal.Frame
import Idealize.ShloMosaic.PureOps.Ideal
import Idealize.ShloMosaic.Lib.Pipeline.Value
import Idealize.ShloMosaic.Lib.StableHlo.Run
import Idealize.ShloMosaic.Lib.Tactic

noncomputable section

namespace Cert.KernelIdeal.KerValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- After the host lines that follow the region, the result buffer `%39` is the host's mean of the loss column as the
    region left it. -/
theorem tail_v39 (c : Dev nD) :
    Pipeline.afterTail₀ cfgs (dats m) 0 (V0 m) [hostOps1] c main_v39
      = Host.divf (Host.reduceAdd ((dats m 0 c).arrAt 7 cfg0.N) (constant (F := Ideal) S_ .f32 0x00000000#32) reducesTo_S65536x1_S_d0_1 h_S_)
          (constant (F := Ideal) S_ .f32 0x47800000#32) := by
  -- the four lines, from the region's exit contents: the sum and the quotient applied to what `%37` holds there
  unfold Pipeline.afterTail₀
  show StableHlo.after hostOps1 _ (Proc.devRef .tc main_v39) = _
  after_results
  -- `%37` is the region's eighth array, which the exit contents hold as the region left it
  refine congrArg (fun y : FVec Ideal S65536x1 .f32 =>
    Host.divf (Host.reduceAdd y (constant (F := Ideal) S_ .f32 0x00000000#32) reducesTo_S65536x1_S_d0_1 h_S_)
      (constant (F := Ideal) S_ .f32 0x47800000#32)) ?_
  exact Pipeline.withArrays_arr spec0 launch0.win.arr_inj c _ _ 7

end Cert.KernelIdeal.KerValue

end
-- ==== Proof.KerArray.lean ====
/-
  The kernel program's run, read: the loss column the region writes, row by row, and the mean the host lines after the
  region take of it.

  Point `t` of the grid writes rows `1024 t … 1024 t + 1023` of the loss column, so row `i` of the column is what the body
  stores at row `i % 1024` of its block at point `i / 1024`; the 64 blocks tile the column.
-/
import proofs.«429627_j49503793054560_2_alg».proof.Proof.KerBlocks
import proofs.«429627_j49503793054560_2_alg».proof.Proof.KerTail

set_option maxRecDepth 16384

noncomputable section

namespace Cert.KernelIdeal.KerValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The loss column after the region -/

/-- The grid point that writes row `i`, and the row's place in that point's block. -/
def tOf (i : S65536x1.Idx) : Fin cfg0.N :=
  ⟨(i 0).val / 1024, by have h : (i 0).val < 65536 := (i 0).isLt; rw [show cfg0.N = 64 from N_0]; omega⟩
def pOf (i : S65536x1.Idx) : Fin 1024 := ⟨(i 0).val % 1024, Nat.mod_lt _ (by decide)⟩

/-- The loss column: row `i` is what point `i / 1024` stores at row `i % 1024`. -/
def outArr (c : Dev nD) : S65536x1.Idx → EReal := fun i => rowAt m c (tOf i) (pOf i)

/-- The loss window's blocks lie inside the column: a write-back moves the whole block. -/
theorem cut7 (t : Fin cfg0.N) (X : Vec Ideal S1024x1 .f32) : (cfg0.win 7).cut (grid0.coords t) X = X := rfl

/-- Reading an array through the loss window's block at point `t` is reading it at the block's embedded indices. -/
theorem read7 (t : Fin cfg0.N) (G : S65536x1.Idx → EReal) :
    ((cfg0.win 7).blk t).view.read (Elt Ideal) G = fun y : S1024x1.Idx => G (((cfg0.win 7).blk t).view.emb y) := rfl

/-- What point `t` writes back is block `t` of the loss column. -/
theorem flushed_eq (c : Dev nD) (t : Fin cfg0.N) :
    (dats m 0 c).flushed 7 t = ((cfg0.win 7).blk t).view.read (Elt Ideal) (outArr m c) := by
  obtain ⟨-, -, -, -, -, -, -, ⟨h0, h1⟩⟩ := idx_facts t
  have key : ∀ y : S1024x1.Idx,
      (out0_7 (F := Ideal) (iblk m c 0 t) (iblk m c 1 t) (iblk m c 2 t) (iblk m c 3 t) (iblk m c 4 t) (iblk m c 5 t) (iblk m c 6 t)
        : Vec Ideal S1024x1 .f32) y = outArr m c (((cfg0.win 7).blk t).view.emb y) := by
    intro y
    obtain ⟨p, q, rfl⟩ : ∃ (p : Fin 1024) (q : Fin 1), y = ix2 p q := ⟨y 0, y 1, eq_ix2 y⟩
    obtain rfl : q = 0 := Subsingleton.elim _ _
    have ht : tOf (((cfg0.win 7).blk t).view.emb (ix2 p (0 : Fin 1))) = t := Fin.ext (by
      show (win0_7.index t (0 : Fin 2) * 1024 + 1 * p.val) / 1024 = t.val
      rw [h0]; have := p.isLt; omega)
    have hp : pOf (((cfg0.win 7).blk t).view.emb (ix2 p (0 : Fin 1))) = p := Fin.ext (by
      show (win0_7.index t (0 : Fin 2) * 1024 + 1 * p.val) % 1024 = p.val
      rw [h0]; have := p.isLt; omega)
    unfold outArr
    rw [ht, hp]
    rfl
  show (cfg0.win 7).cut (grid0.coords t) ((dats m 0 c).after 7 t) = _
  rw [after0_7]
  refine (cut7 t _).trans ?_
  refine Eq.trans ?_ (read7 t (outArr m c)).symm
  exact funext key

/-- An index of the loss column is in point `t`'s block iff each coordinate is in the block's range on its axis. -/
theorem mem_blk7 (t : Fin cfg0.N) (i : S65536x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v37).slice (win0_7.rect t)).set ↔ _
  rw [View.set_slice_whole, Rect.mem_set_unit]
  exact Iff.rfl

/-- The 64 blocks tile the loss column. -/
theorem cover7 (i : S65536x1.Idx) : ∃ t : Fin cfg0.N, (cfg0.win 7).flush t = true ∧ i ∈ ((cfg0.win 7).blk t).view.set := by
  refine ⟨tOf i, flush0_7 _, ?_⟩
  obtain ⟨-, -, -, -, -, -, -, ⟨h0, h1⟩⟩ := idx_facts (tOf i)
  rw [mem_blk7]
  intro a
  have hi0 : (i 0).val < 65536 := (i 0).isLt
  have hi1 : (i 1).val < 1 := (i 1).isLt
  match a with
  | ⟨0, _⟩ =>
    show win0_7.index (tOf i) (0 : Fin 2) * 1024 ≤ (i 0).val ∧ (i 0).val < win0_7.index (tOf i) (0 : Fin 2) * 1024 + 1024
    rw [h0]; show (i 0).val / 1024 * 1024 ≤ (i 0).val ∧ (i 0).val < (i 0).val / 1024 * 1024 + 1024; omega
  | ⟨1, _⟩ =>
    show win0_7.index (tOf i) (1 : Fin 2) * 1 ≤ (i 1).val ∧ (i 1).val < win0_7.index (tOf i) (1 : Fin 2) * 1 + 1
    rw [h1]; omega

/-- So after the region the loss column is `outArr`. -/
theorem final7 (c : Dev nD) : (dats m 0 c).arrAt 7 cfg0.N = outArr m c :=
  (dats m 0 c).arrAt_eq_of_cover 7 (outArr m c) (fun t _ => flushed_eq m c t) cover7

/-! ## The run -/

/-- The mean the host takes of the loss column: its sum over both axes from the zero literal, over the literal `65536.0`. -/
def kerResult (c : Dev nD) : Buf (Elt Ideal) ((c.tc : Thread nD τ).loc main_v39) :=
  Host.divf (Host.reduceAdd (outArr m c) (constant (F := Ideal) S_ .f32 0x00000000#32) reducesTo_S65536x1_S_d0_1 h_S_)
    (constant (F := Ideal) S_ .f32 0x47800000#32)

/-- Every weakly fair execution of the kernel program terminates with the result buffer at the mean of the loss column and
    the three arguments unchanged. -/
theorem ker_run : θ_run defs (onTc (τ := τ) (main (F := Ideal))) ⟨m, fun _ => 0, ρ⟩ fun r => ∀ c : Dev nD,
      r.2.mem ((c.tc : Thread nD τ).loc main_v39) = kerResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v39 (Pipeline.mem_restRefs_of main_v39 (by decide) (by decide))).trans
        ((tail_v39 m c).trans (by unfold kerResult; rw [final7])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.KerRow.lean ====
/-
  The kernel body's stored value read at a row: the row loss in the kernel's arrangement, over the body's rescaled
  distances; those distances and the same-class mask read at an entry.
-/
import proofs.«429627_j49503793054560_2_alg».proof.Proof.Gen.KernelIdeal.Skeleton
import proofs.«429627_j49503793054560_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx Cert.Nca

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

private theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  exact Finset.sum_congr rfl fun k _ => congrArg src (lift_row h p k)

private theorem iota_col_apply (h : S1024x1024.Iotas .tc 32 [1]) (p k : Fin 1024) :
    iota .tc S1024x1024 32 [1] h (ix2 p k) = BitVec.ofNat 32 k.val :=
  iota_single_apply .tc S1024x1024 32 1 h (ix2 p k)

private theorem log_apply {s : Shape} {φ : FTy} (a : FVec Ideal s φ) (i : s.Idx) : log a i = Ideal.log (a i) := rfl
private theorem exp_apply {s : Shape} {φ : FTy} (a : FVec Ideal s φ) (i : s.Idx) : exp a i = Ideal.exp (a i) := rfl
private theorem sob (w : BitVec 32) : (Scalar.ofBits .f32 w : Ideal .f32) = Ideal.ofBits .f32 w := rfl

private theorem lhs_mm_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
private theorem lhs_mm_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
private theorem rhs_mm_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
private theorem rhs_mm_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The matrix product into the zero block, read at `(p, k)`: the sum over the contraction coordinate. -/
private theorem mm_apply (lhs : FVec Ideal S1024x128 .f32) (rhs : FVec Ideal S128x1024 .f32) (p k : Fin 1024) :
    matmul dot_S1024x128_S128x1024_S1024x1024_1_0_0_1_n_n none lhs rhs (constant S1024x1024 .f32 0x00000000#32) (ix2 p k)
      = ∑ j : Fin 128, lhs (ix2 p j) * rhs (ix2 j k) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun j _ => ?_
  have hk := ValueIdx.contrEquiv1_symm_val dot_S1024x128_S128x1024_S1024x1024_1_0_0_1_n_n 128 rfl rfl j
  have el : dot_S1024x128_S128x1024_S1024x1024_1_0_0_1_n_n.lhsIdx (ix2 p k) ((ValueIdx.contrEquiv1 dot_S1024x128_S128x1024_S1024x1024_1_0_0_1_n_n 128 rfl rfl).symm j) = ix2 p j := funext fun a => Fin.ext (by
    match a with
    | ⟨0, _⟩ => exact lhs_mm_0 _ _
    | ⟨1, _⟩ => exact (lhs_mm_1 _ _).trans hk)
  have er : dot_S1024x128_S128x1024_S1024x1024_1_0_0_1_n_n.rhsIdx (ix2 p k) ((ValueIdx.contrEquiv1 dot_S1024x128_S128x1024_S1024x1024_1_0_0_1_n_n 128 rfl rfl).symm j) = ix2 j k := funext fun a => Fin.ext (by
    match a with
    | ⟨0, _⟩ => exact (rhs_mm_0 _ _).trans hk
    | ⟨1, _⟩ => exact rhs_mm_1 _ _)
  rw [el, er]

/-- A float `vector.multi_reduction <minimumf>` over one axis, read at `Ideal`: the fold of `min` from the accumulator's value
    over that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

private theorem rowMax_apply {a b : ℕ} (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (fun f => Finset.fold max (Ideal.ofBits .f32 acc) f (Finset.univ : Finset (Fin b)))
    (funext fun k => congrArg src (lift_row h p k))

private theorem rowMin_apply {a b : ℕ} (src : FVec Ideal ⟨2, ![a, b]⟩ .f32) (acc : BitVec 32) (h : (⟨2, ![a, b]⟩ : Shape).Reduces [1] ⟨1, ![a]⟩)
    (hφ : FKind.Formats .f32) (hacc : acc = FKind.minimumf.neutral .f32 hφ) (p : Fin a) :
    multiReduction .minimumf [1] ⟨1, ![a]⟩ src acc h hφ hacc (ix1 p)
      = (Finset.univ : Finset (Fin b)).fold min (Ideal.ofBits .f32 acc) (fun k => src (ix2 p k)) := by
  refine (multiReduction_minimumf_single src acc h hφ hacc (ix1 p)).trans ?_
  exact congrArg (fun f => Finset.fold min (Ideal.ofBits .f32 acc) f (Finset.univ : Finset (Fin b)))
    (funext fun k => congrArg src (lift_row h p k))

/-- The midpoint column: half the sum of the row's maximum and of the row's minimum over the valid entries. -/
private theorem base_row (v26 v37 : FVec Ideal S1024x1024 .f32) (v28 : IVec S1024x1024 1)
    (h : S1024x1024.Reduces [1] S1024) (hφ : FKind.Formats .f32)
    (hmax : (0xFF800000#32 : BitVec 32) = FKind.maximumf.neutral .f32 hφ) (hmin : (0x7F800000#32 : BitVec 32) = FKind.minimumf.neutral .f32 hφ)
    (sc : S1024.ShapeCasts S1024x1) (p : Fin 1024) :
    mulf (F := Ideal) (φ := .f32) (broadcast S1024x1 (Scalar.ofBits .f32 0x3F000000#32))
        (addf (shapeCast S1024x1 (multiReduction (F := Ideal) (φ := .f32) .maximumf [1] S1024 v37 0xFF800000#32 h hφ hmax) sc)
          (shapeCast S1024x1 (multiReduction (F := Ideal) (φ := .f32) .minimumf [1] S1024
            (select v28 v26 (broadcast S1024x1024 (Scalar.ofBits .f32 0x7F800000#32))) 0x7F800000#32 h hφ hmin) sc))
        (ix2 p (0 : Fin 1))
      = halfW * ((Finset.univ : Finset (Fin 1024)).fold max negInfW (fun k => v37 (ix2 p k))
          + (Finset.univ : Finset (Fin 1024)).fold min posInfW (fun k => Scalar.select (v28 (ix2 p k)) (v26 (ix2 p k)) posInfW)) := by
  refine (mulf_apply _ _ _).trans ?_
  rw [broadcast_apply, addf_apply, shapeCast_a_a1_apply, shapeCast_a_a1_apply, rowMax_apply, rowMin_apply]
  simp only [select_apply, broadcast_apply, sob]

/-- From the midpoint column `c` on: the negated logarithm of the ratio of the two masked sums of exponentials. -/
private theorem tail_row (v26 : FVec Ideal S1024x1024 .f32) (v28 v35 : IVec S1024x1024 1) (c : FVec Ideal S1024x1 .f32)
    (h : S1024x1024.Reduces [1] S1024) (hφ : FKind.Formats .f32)
    (hacc : (0x00000000#32 : BitVec 32) = FKind.add.neutral .f32 hφ)
    (sc : S1024.ShapeCasts S1024x1) (bc : S1024x1.Broadcasts S1024x1024) (p : Fin 1024) (b : EReal) (hb : c (ix2 p (0 : Fin 1)) = b) :
    subf (F := Ideal) (φ := .f32) (broadcast S1024x1 (Scalar.ofBits .f32 0x00000000#32))
        (log (divf
          (shapeCast S1024x1 (multiReduction (F := Ideal) (φ := .f32) .add [1] S1024
            (select v35 (select v28 (exp (subf v26 (broadcastTo S1024x1024 c bc))) (broadcast S1024x1024 (Scalar.ofBits .f32 0x00000000#32)))
              (broadcast S1024x1024 (Scalar.ofBits .f32 0x00000000#32)))
            0x00000000#32 h hφ hacc) sc)
          (shapeCast S1024x1 (multiReduction (F := Ideal) (φ := .f32) .add [1] S1024
            (select v28 (exp (subf v26 (broadcastTo S1024x1024 c bc))) (broadcast S1024x1024 (Scalar.ofBits .f32 0x00000000#32)))
            0x00000000#32 h hφ hacc) sc)))
        (ix2 p (0 : Fin 1))
      = zeroW - Ideal.log (Ideal.div
          (∑ k : Fin 1024, Scalar.select (v35 (ix2 p k)) (Scalar.select (v28 (ix2 p k)) (Ideal.exp (v26 (ix2 p k) - b)) zeroW) zeroW)
          (∑ k : Fin 1024, Scalar.select (v28 (ix2 p k)) (Ideal.exp (v26 (ix2 p k) - b)) zeroW)) := by
  refine (subf_apply _ _ _).trans ?_
  rw [broadcast_apply, log_apply, divf_apply, shapeCast_a_a1_apply, shapeCast_a_a1_apply, rowSum_apply, rowSum_apply]
  simp only [select_apply, exp_apply, subf_apply, broadcast_apply, broadcastTo_a1_ab_apply, hb, sob]

private theorem pay1_row (v26 v37 : FVec Ideal S1024x1024 .f32) (v28 v35 : IVec S1024x1024 1) (p : Fin 1024) :
    k0_pay1 (F := Ideal) v26 v28 v35 v37 (ix2 p (0 : Fin 1))
      = zeroW - Ideal.log (Ideal.div
          (∑ k : Fin 1024, Scalar.select (v35 (ix2 p k)) (Scalar.select (v28 (ix2 p k)) (Ideal.exp (v26 (ix2 p k)
            - halfW * ((Finset.univ : Finset (Fin 1024)).fold max negInfW (fun k => v37 (ix2 p k))
                + (Finset.univ : Finset (Fin 1024)).fold min posInfW (fun k => Scalar.select (v28 (ix2 p k)) (v26 (ix2 p k)) posInfW)))) zeroW) zeroW)
          (∑ k : Fin 1024, Scalar.select (v28 (ix2 p k)) (Ideal.exp (v26 (ix2 p k)
            - halfW * ((Finset.univ : Finset (Fin 1024)).fold max negInfW (fun k => v37 (ix2 p k))
                + (Finset.univ : Finset (Fin 1024)).fold min posInfW (fun k => Scalar.select (v28 (ix2 p k)) (v26 (ix2 p k)) posInfW)))) zeroW)) := by
  unfold k0_pay1
  exact tail_row v26 v28 v35 _ _ _ _ _ _ p _ (base_row v26 v37 v28 _ _ _ _ _ p)

private theorem pay3_apply (x0 : Vec Ideal S1024x128 .f32) (x1 : Vec Ideal S128x1024 .f32) (x2 x3 : Vec Ideal S1x1024 .f32)
    (x5 : Vec Ideal S1024x1 .i32) (i : S1024x1024.Idx) :
    k0_pay3 (F := Ideal) x0 x1 x2 x5 x3 i = Ideal.cmp .olt (k0_pay2 (F := Ideal) x0 x1 x2 x5 x3 i) m16epsW := rfl

private theorem pay5_apply (x0 : Vec Ideal S1024x128 .f32) (x1 : Vec Ideal S128x1024 .f32) (x2 x3 : Vec Ideal S1x1024 .f32)
    (x5 : Vec Ideal S1024x1 .i32) (i : S1024x1024.Idx) :
    k0_pay5 (F := Ideal) x0 x1 x2 x5 x3 i
      = Scalar.select (k0_pay3 (F := Ideal) x0 x1 x2 x5 x3 i) (k0_pay2 (F := Ideal) x0 x1 x2 x5 x3 i) negInfW := rfl

/-- Row `p` of the block the body stores is the row loss over that row's rescaled distances and mask. -/
theorem ker_row (x0 : Vec Ideal S1024x128 .f32) (x1 : Vec Ideal S128x1024 .f32) (x2 x3 : Vec Ideal S1x1024 .f32)
    (x4 : Vec Ideal S1x1024 .i32) (x5 x6 : Vec Ideal S1024x1 .i32) (p : Fin 1024) :
    k0_pay1 (F := Ideal) (k0_pay2 x0 x1 x2 x5 x3) (k0_pay3 x0 x1 x2 x5 x3) (k0_pay4 (F := Ideal) x6 x4) (k0_pay5 x0 x1 x2 x5 x3) (ix2 p (0 : Fin 1))
      = kerRow (fun k => k0_pay2 (F := Ideal) x0 x1 x2 x5 x3 (ix2 p k)) (fun k => k0_pay4 (F := Ideal) x6 x4 (ix2 p k)) := by
  refine (pay1_row _ _ _ _ p).trans ?_
  simp only [pay5_apply, pay3_apply, kerRow]

/-- The rescaled distance of the block's row `p` to center `k`, from the loaded blocks. -/
theorem ker_dist (x0 : Vec Ideal S1024x128 .f32) (x1 : Vec Ideal S128x1024 .f32) (x2 x3 : Vec Ideal S1x1024 .f32)
    (x5 : Vec Ideal S1024x1 .i32) (p k : Fin 1024) :
    k0_pay2 (F := Ideal) x0 x1 x2 x5 x3 (ix2 p k)
      = (((∑ j : Fin 128, x0 (ix2 p j) * x1 (ix2 j k)) + m16W * (∑ j : Fin 128, x0 (ix2 p j) * x0 (ix2 p j))) + x2 (ix2 (0 : Fin 1) k))
          * Scalar.select (IntOp.cmpi .eq (x5 (ix2 p (0 : Fin 1))) (BitVec.ofNat 32 k.val)) (x3 (ix2 (0 : Fin 1) k)) oneW := by
  unfold k0_pay2
  show (((matmul (F := Ideal) dot_S1024x128_S128x1024_S1024x1024_1_0_0_1_n_n none x0 (shapeCast S128x1024 x1 _) (constant S1024x1024 .f32 0x00000000#32) (ix2 p k) : EReal)
          + (broadcastTo S1024x1024 (mulf (F := Ideal) (φ := .f32) (broadcast S1024x1 m16W)
              (shapeCast S1024x1 (multiReduction (F := Ideal) (φ := .f32) .add [1] S1024 (mulf (F := Ideal) x0 x0) 0x00000000#32 _ _ _) _)) _ (ix2 p k) : EReal))
          + (broadcastTo S1024x1024 (shapeCast S1x1024 x2 _) _ (ix2 p k) : EReal))
        * Scalar.select (IntOp.cmpi .eq (broadcastTo S1024x1024 (shapeCast S1024x1 x5 _) _ (ix2 p k)) (iota .tc S1024x1024 32 [1] _ (ix2 p k)))
            (broadcastTo S1024x1024 (shapeCast S1x1024 (shapeCast S1x1024 x3 _) _) _ (ix2 p k) : EReal) oneW = _
  refine congrArg₂ (· * ·) (congrArg₂ (· + ·) (congrArg₂ (· + ·) ?_ ?_) ?_)
    (congrArg₂ (fun c t => Scalar.select c t oneW) (congrArg₂ (IntOp.cmpi .eq) ?_ ?_) ?_)
  · rw [shapeCast_self]; exact mm_apply x0 x1 p k
  · refine (broadcastTo_a1_ab_apply _ _ p k).trans ?_
    refine congrArg (m16W * ·) ?_
    refine (shapeCast_a_a1_apply _ _ p 0).trans ?_
    exact rowSum_apply (mulf x0 x0) _ _ _ p
  · rw [shapeCast_self]; exact broadcastTo_1b_ab_apply x2 _ p k
  · rw [shapeCast_self]; exact broadcastTo_a1_ab_apply x5 _ p k
  · exact iota_col_apply _ p k
  · rw [shapeCast_self, shapeCast_self]; exact broadcastTo_1b_ab_apply x3 _ p k

/-- The same-class mask of the block's row `p` and center `k`. -/
theorem ker_same (x6 : Vec Ideal S1024x1 .i32) (x4 : Vec Ideal S1x1024 .i32) (p k : Fin 1024) :
    k0_pay4 (F := Ideal) x6 x4 (ix2 p k) = IntOp.cmpi .eq (x4 (ix2 (0 : Fin 1) k)) (x6 (ix2 p (0 : Fin 1))) := by
  unfold k0_pay4
  rw [shapeCast_self, shapeCast_self]
  show IntOp.cmpi .eq (broadcastTo S1024x1024 x4 _ (ix2 p k)) (broadcastTo S1024x1024 x6 _ (ix2 p k)) = _
  rw [broadcastTo_1b_ab_apply, broadcastTo_a1_ab_apply]

end Cert.KernelIdeal.KerValue

end
-- ==== Proof.KerHost.lean ====
/-
  The arrays the kernel region finds, read at an entry: the host lines before the region compute the same cluster
  sizes, centers, weights and cluster labels as the reference (the reference's stages `%9`, `%38`, `%17`), then
  prescale the transposed centers by 32 and the centers' squared norms by -16 and reshape the vectors to rows and columns.
-/
import proofs.«429627_j49503793054560_2_alg».proof.Proof.Gen.KernelIdeal.Frame
import proofs.«429627_j49503793054560_2_alg».proof.Proof.RefRead
import proofs.«429627_j49503793054560_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KerValue

open Cert.KernelIdeal Cert.KernelIdeal.Gen Idealize.ShloMosaic Idealize.ShloMosaic.TcCoe Idealize.SL.Sem Idealize.ShloMosaic.ValueIdx Cert.Nca
open Cert.ReferenceIdeal.Read (val_main_v9 val_main_v38 val_main_v17)

variable (m : (ℓ : Loc nD τ sig) → Buf (Elt Ideal) ℓ) (c : Dev nD)

/-- The three argument arrays as launched. -/
abbrev X0 : Buf (Elt Ideal) ((c.tc : Thread nD τ).loc main_arg0) := m ((c.tc : Thread nD τ).loc main_arg0)
abbrev X1 : Buf (Elt Ideal) ((c.tc : Thread nD τ).loc main_arg1) := m ((c.tc : Thread nD τ).loc main_arg1)
abbrev X2 : Buf (Elt Ideal) ((c.tc : Thread nD τ).loc main_arg2) := m ((c.tc : Thread nD τ).loc main_arg2)

/-! ## Two readings at an index -/

/-- A vector cast to a one-column matrix reads, at `(i, u)`, the operand at `i`: the two row-major positions are
    `i` and `i * 1 + u` with `u = 0`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's sum over the second axis of a `[1024, 128]` array, at row `k`: the initial value plus the sum of the
    row's 128 entries. -/
private theorem hostReduceAdd_row_apply (y : FVec Ideal S1024x128 .f32) (z : FVec Ideal S_ .f32) (k : Fin 1024) :
    Host.reduceAdd (F := Ideal) (φ := .f32) y z reducesTo_S1024x128_S1024_d1 h_S_ (ix1 k)
      = z (Shape.Idx.first h_S_) + ∑ j : Fin 128, y (ix2 k j) := by
  simp only [Host.reduceAdd, Ideal.hostReduceAdd_def]
  rw [Ideal.hostReduceAdd_single reducesTo_S1024x128_S1024_d1 (by decide)]
  refine congrArg (_ + ·) (Finset.sum_congr rfl fun j _ => ?_)
  exact congrArg y (funext fun a => Fin.ext (by match a with | ⟨0, _⟩ => rfl | ⟨1, _⟩ => rfl))

/-! ## The composed terms: each array as the operations that wrote it, over the reference's stages -/

/-- `%29` is 32 (broadcast) times the transpose of the centers, and the centers are the reference's `%9`: the
    kernel's lines `%0`–`%9` are the reference's, operation for operation. -/
theorem V_v29_eq : (V m c main_v29 : S128x1024.Idx → EReal)
    = (mulf (broadcastInDim S128x1024 ![] bcast_S_S128x1024 (constant (F := Ideal) S_ .f32 0x42000000#32))
        (transpose S128x1024 [1, 0] (val_main_v9 (F := Ideal) (X0 m c) (X1 m c)) transposes_S1024x128_S128x1024_1_0)
        : (⟨S128x1024, .f32⟩ : BufTy).Contents (Elt Ideal)) := by
  dsimp only [Gen.V, Gen.V0]
  simp only [Gen.hostOps0, Gen.hostOps0_1, Gen.hostOps0_2, List.flatten_cons, List.flatten_nil, List.append_nil, List.cons_append, List.nil_append]
  after_results_simp
  rfl

/-- `%36` is the row form of -16 (broadcast) times the sum over the second axis of the centers' squares. -/
theorem V_v36_eq : (V m c main_v36 : S1x1024.Idx → EReal)
    = fun i => shapeCast S1x1024
        (mulf (broadcastInDim S1024 ![] bcast_S_S1024 (constant (F := Ideal) S_ .f32 0xC1800000#32))
          (Host.reduceAdd (F := Ideal)
            (mulf (val_main_v9 (F := Ideal) (X0 m c) (X1 m c)) (val_main_v9 (F := Ideal) (X0 m c) (X1 m c)))
            (constant (F := Ideal) S_ .f32 0x00000000#32) reducesTo_S1024x128_S1024_d1 h_S_)
          : (⟨S1024, .f32⟩ : BufTy).Contents (Elt Ideal))
        shapeCasts_S1024_S1x1024 i := by
  dsimp only [Gen.V, Gen.V0]
  simp only [Gen.hostOps0, Gen.hostOps0_1, Gen.hostOps0_2, List.flatten_cons, List.flatten_nil, List.append_nil, List.cons_append, List.nil_append]
  after_results_simp
  rfl

set_option maxRecDepth 8192 in
/-- `%35` is the row form of `%24`, the clusters' weights, which are the reference's `%38` (the kernel's lines
    `%18`–`%24` are the reference's `%32`–`%38`; the module-local function's buffers carry their values' types, so the
    transports along those type equations are identities). -/
theorem V_v35_eq : (V m c main_v35 : S1x1024.Idx → EReal)
    = fun i => shapeCast S1x1024 (val_main_v38 (F := Ideal) (X1 m c)) shapeCasts_S1024_S1x1024 i := by
  dsimp only [Gen.V, Gen.V0]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_eq]
  rfl

/-- `%34` is the row form of `%17`, the clusters' class labels: the reference's `%17`. -/
theorem V_v34_eq : (V m c main_v34 : S1x1024.Idx → BitVec 32)
    = fun i => shapeCast S1x1024 (val_main_v17 (F := Ideal) (X1 m c) (X2 m c)) shapeCasts_S1024_S1x1024 i := by
  dsimp only [Gen.V, Gen.V0]
  simp only [Gen.hostOps0, Gen.hostOps0_1, Gen.hostOps0_2, List.flatten_cons, List.flatten_nil, List.append_nil, List.cons_append, List.nil_append]
  after_results_simp
  rfl

/-- `%32` is the column form of the second argument. -/
theorem V_v32_eq : (V m c main_v32 : S65536x1.Idx → BitVec 32)
    = fun i => shapeCast S65536x1 (X1 m c) shapeCasts_S65536_S65536x1 i := by
  dsimp only [Gen.V, Gen.V0]
  simp only [Gen.hostOps0, Gen.hostOps0_1, Gen.hostOps0_2, List.flatten_cons, List.flatten_nil, List.append_nil, List.cons_append, List.nil_append]
  after_results_simp
  rfl

/-- `%33` is the column form of the third argument. -/
theorem V_v33_eq : (V m c main_v33 : S65536x1.Idx → BitVec 32)
    = fun i => shapeCast S65536x1 (X2 m c) shapeCasts_S65536_S65536x1 i := by
  dsimp only [Gen.V, Gen.V0]
  simp only [Gen.hostOps0, Gen.hostOps0_1, Gen.hostOps0_2, List.flatten_cons, List.flatten_nil, List.append_nil, List.cons_append, List.nil_append]
  after_results_simp
  rfl

/-! ## Read at an entry -/

/-- `%29`, the kernel's second operand: 32 times the transposed centers. -/
theorem V_v29_apply (j : Fin 128) (k : Fin 1024) :
    V m c main_v29 (ix2 j k) = w32W * val_main_v9 (F := Ideal) (X0 m c) (X1 m c) (ix2 k j) := by
  refine (congrFun (V_v29_eq m c) (ix2 j k)).trans ?_
  exact congrArg₂ (· * ·)
    (broadcastInDim_apply _ bcast_S_S128x1024 (constant (F := Ideal) S_ .f32 0x42000000#32) (ix2 j k)
      (fun a => a.elim0) (fun a => a.elim0))
    (transpose_apply [1, 0] (val_main_v9 (F := Ideal) (X0 m c) (X1 m c)) transposes_S1024x128_S128x1024_1_0
      (ix2 j k) (ix2 k j) (fun b => match b with
        | ⟨0, _⟩ => rfl
        | ⟨1, _⟩ => rfl))

/-- `%36`, the third operand: -16 times the centers' squared norms, as a row. -/
theorem V_v36_apply (k : Fin 1024) :
    V m c main_v36 (ix2 (0 : Fin 1) k)
      = m16W * (zeroW + ∑ j : Fin 128, val_main_v9 (F := Ideal) (X0 m c) (X1 m c) (ix2 k j) * val_main_v9 (F := Ideal) (X0 m c) (X1 m c) (ix2 k j)) := by
  refine (congrFun (V_v36_eq m c) (ix2 (0 : Fin 1) k)).trans ?_
  refine (shapeCast_a_1a_apply _ shapeCasts_S1024_S1x1024 0 k).trans ?_
  exact congrArg₂ (· * ·)
    (broadcastInDim_apply _ bcast_S_S1024 (constant (F := Ideal) S_ .f32 0xC1800000#32) (ix1 k)
      (fun a => a.elim0) (fun a => a.elim0))
    (hostReduceAdd_row_apply _ _ k)

/-- `%35`, the fourth operand: the clusters' weights, as a row. -/
theorem V_v35_apply (k : Fin 1024) :
    V m c main_v35 (ix2 (0 : Fin 1) k) = val_main_v38 (F := Ideal) (X1 m c) (ix1 k) :=
  (congrFun (V_v35_eq m c) _).trans
    (shapeCast_a_1a_apply (val_main_v38 (F := Ideal) (X1 m c)) shapeCasts_S1024_S1x1024 0 k)

/-- `%34`, the fifth operand: the clusters' class labels, as a row. -/
theorem V_v34_apply (k : Fin 1024) :
    V m c main_v34 (ix2 (0 : Fin 1) k) = val_main_v17 (F := Ideal) (X1 m c) (X2 m c) (ix1 k) :=
  (congrFun (V_v34_eq m c) _).trans
    (shapeCast_a_1a_apply (val_main_v17 (F := Ideal) (X1 m c) (X2 m c)) shapeCasts_S1024_S1x1024 0 k)

/-- `%32`, the sixth operand: the rows' cluster ids, as a column. -/
theorem V_v32_apply (i : Fin 65536) :
    V m c main_v32 (ix2 i (0 : Fin 1)) = X1 m c (ix1 i) :=
  (congrFun (V_v32_eq m c) _).trans (shapeCast_a_a1_apply (X1 m c) shapeCasts_S65536_S65536x1 i 0)

/-- `%33`, the seventh operand: the rows' class labels, as a column. -/
theorem V_v33_apply (i : Fin 65536) :
    V m c main_v33 (ix2 i (0 : Fin 1)) = X2 m c (ix1 i) :=
  (congrFun (V_v33_eq m c) _).trans (shapeCast_a_a1_apply (X2 m c) shapeCasts_S65536_S65536x1 i 0)

end Cert.KernelIdeal.KerValue

end
-- ==== Proof.RefRow.lean ====
/-
  The reference read at a row: its per-row loss is the row loss in the reference's arrangement over the row's weighted
  distances; those distances and the same-class mask read at an entry; the result is the mean of the rows' losses.
-/
import proofs.«429627_j49503793054560_2_alg».proof.Proof.RefRead
import proofs.«429627_j49503793054560_2_alg».proof.Proof.Spec
import Idealize.ShloMosaic.Lib.ValueIdx
import Idealize.ShloMosaic.Lib.ValueIdxRank1
import Idealize.ShloMosaic.PureOps.Ideal.Laws

noncomputable section

namespace Cert.ReferenceIdeal.RefValue

open Cert.ReferenceIdeal Cert.ReferenceIdeal.Read Idealize.ShloMosaic Idealize.ShloMosaic.ValueIdx Cert.Nca

variable (x0 : (⟨S65536x128, .f32⟩ : BufTy).Contents (Elt Ideal)) (x1 x2 : (⟨S65536, .i32⟩ : BufTy).Contents (Elt Ideal))

/-- In the reduced shape, the row index `i` with column `k` put back is `(i, k)`. -/
private theorem lift_row (h : S65536x1024.Reduces [1] S65536) (i : Fin 65536) (k : Fin (S65536x1024.size 1)) :
    h.lift (ix1 i) k = ix2 i (⟨k.val, k.isLt⟩ : Fin 1024) := by
  funext c; apply Fin.ext
  match c with
  | ⟨0, _⟩ => rfl
  | ⟨1, _⟩ => rfl

/-- The row maximum: the fold of `max` from `-∞` over the row's 1024 entries of `%56`. -/
private theorem v57_row (i : Fin 65536) :
    val_main_v57 (F := Ideal) x0 x1 (ix1 i)
      = (Finset.univ : Finset (Fin 1024)).fold max negInfW (fun k => val_main_v56 (F := Ideal) x0 x1 (ix2 i k)) := by
  unfold val_main_v57
  generalize val_main_v56 (F := Ideal) x0 x1 = y
  have h : S65536x1024.Reduces [1] S65536 := by decide
  have key := Host.reduce_eq_fold_single (FloatOps.maximumf (F := Ideal) (φ := .f32)) y (val_main_cst_13 (F := Ideal))
    Gen.reducesTo_S65536x1024_S65536_d1 h Gen.h_S_ (ix1 i)
  refine key.trans ?_
  have hf : (y ∘ h.lift (ix1 i)) = fun k : Fin 1024 => y (ix2 i k) := funext fun k => congrArg y (lift_row h i k)
  exact congrArg (fun f => Finset.fold max negInfW f (Finset.univ : Finset (Fin 1024))) hf

/-- The row minimum: the fold of `min` from `+∞` over the row's 1024 entries of `%58`. -/
private theorem v59_row (i : Fin 65536) :
    val_main_v59 (F := Ideal) x0 x1 (ix1 i)
      = (Finset.univ : Finset (Fin 1024)).fold min posInfW (fun k => val_main_v58 (F := Ideal) x0 x1 (ix2 i k)) := by
  unfold val_main_v59
  generalize val_main_v58 (F := Ideal) x0 x1 = y
  have h : S65536x1024.Reduces [1] S65536 := by decide
  have key := Host.reduce_eq_fold_single (FloatOps.minimumf (F := Ideal) (φ := .f32)) y (val_main_cst_15 (F := Ideal))
    Gen.reducesTo_S65536x1024_S65536_d1 h Gen.h_S_ (ix1 i)
  refine key.trans ?_
  have hf : (y ∘ h.lift (ix1 i)) = fun k : Fin 1024 => y (ix2 i k) := funext fun k => congrArg y (lift_row h i k)
  exact congrArg (fun f => Finset.fold min posInfW f (Finset.univ : Finset (Fin 1024))) hf

/-- The validity bit of a distance: it exceeds `ε`. -/
private def rValid (d : Fin 1024 → EReal) (k : Fin 1024) : BitVec 1 := Ideal.cmp .ogt (d k) epsW

/-- The midpoint of the largest and the smallest valid distance. -/
private def rBase (d : Fin 1024 → EReal) : EReal :=
  halfW * ((Finset.univ : Finset (Fin 1024)).fold max negInfW (fun k => Scalar.select (rValid d k) (d k) negInfW)
    + (Finset.univ : Finset (Fin 1024)).fold min posInfW (fun k => Scalar.select (rValid d k) (d k) posInfW))

/-- The exponential weight of a distance: `exp (-16 · (d k - base))`. -/
private def rE (d : Fin 1024 → EReal) (k : Fin 1024) : EReal := Ideal.exp (m16W * (d k - rBase d))

/-- The row loss spelled through the three quantities above. -/
private theorem refRow_eq (d : Fin 1024 → EReal) (same : Fin 1024 → BitVec 1) :
    refRow d same = -(Ideal.log (Ideal.div
      (zeroW + ∑ k : Fin 1024, Scalar.select (IntOp.andi (rValid d k) (same k)) (rE d k) zeroW)
      (zeroW + ∑ k : Fin 1024, Scalar.select (rValid d k) (rE d k) zeroW))) := rfl

/-- `%49` at `(i, k)`: the validity bit of the row's distance to center `k`. -/
private theorem v49_at (i : Fin 65536) (k : Fin 1024) :
    val_main_v49 (F := Ideal) x0 x1 (ix2 i k) = rValid (fun k => val_main_v47 (F := Ideal) x0 x1 (ix2 i k)) k := by
  rw [val_main_v49_apply, val_main_v48_apply, val_main_cst_11_apply]
  rfl

/-- `%56` at `(i, k)`: the distance where valid, else `-∞`. -/
private theorem v56_at (i : Fin 65536) (k : Fin 1024) :
    val_main_v56 (F := Ideal) x0 x1 (ix2 i k)
      = Scalar.select (rValid (fun k => val_main_v47 (F := Ideal) x0 x1 (ix2 i k)) k) (val_main_v47 (F := Ideal) x0 x1 (ix2 i k)) negInfW := by
  rw [val_main_v56_apply, v49_at, val_main_call2_v1_apply, val_main_call2_v0_apply, val_main_cst_12_apply]
  rfl

/-- `%58` at `(i, k)`: the distance where valid, else `+∞`. -/
private theorem v58_at (i : Fin 65536) (k : Fin 1024) :
    val_main_v58 (F := Ideal) x0 x1 (ix2 i k)
      = Scalar.select (rValid (fun k => val_main_v47 (F := Ideal) x0 x1 (ix2 i k)) k) (val_main_v47 (F := Ideal) x0 x1 (ix2 i k)) posInfW := by
  rw [val_main_v58_apply, v49_at, val_main_call3_v1_apply, val_main_call3_v0_apply, val_main_cst_14_apply]
  rfl

/-- `%62` at row `i`: the midpoint of the row's extreme valid distances. -/
private theorem v62_at (i : Fin 65536) :
    val_main_v62 (F := Ideal) x0 x1 (ix1 i) = rBase (fun k => val_main_v47 (F := Ideal) x0 x1 (ix2 i k)) := by
  rw [val_main_v62_apply, val_main_v61_apply, val_main_cst_16_apply, val_main_v60_apply, v57_row, v59_row]
  simp only [v56_at, v58_at]
  rfl

/-- `%68` at `(i, k)`: the exponential weight of the row's distance to center `k`. -/
private theorem v68_at (i : Fin 65536) (k : Fin 1024) :
    val_main_v68 (F := Ideal) x0 x1 (ix2 i k) = rE (fun k => val_main_v47 (F := Ideal) x0 x1 (ix2 i k)) k := by
  have e63 : idx_main_v63 (idx_main_v64 (ix2 i k)) = ix1 i :=
    funext fun a => Fin.ext (by match a with | ⟨0, _⟩ => rfl)
  rw [val_main_v68_apply, val_main_v67_apply, val_main_v66_apply, val_main_cst_17_apply, val_main_v65_apply,
    val_main_v64_apply, val_main_v63_apply, e63, v62_at, Ideal.hostUnary_exp_def, Ideal.mulf_def, Ideal.subf_def,
    Ideal.ofBits_def]
  rfl

/-- `%69` at `(i, k)`: the weight where valid and of the row's class, else zero. -/
private theorem v69_at (i : Fin 65536) (k : Fin 1024) :
    val_main_v69 (F := Ideal) x0 x1 x2 (ix2 i k)
      = Scalar.select (IntOp.andi (rValid (fun k => val_main_v47 (F := Ideal) x0 x1 (ix2 i k)) k) (val_main_v54 (F := Ideal) x1 x2 (ix2 i k)))
          (rE (fun k => val_main_v47 (F := Ideal) x0 x1 (ix2 i k)) k) zeroW := by
  rw [val_main_v69_apply, val_main_v55_apply, v49_at, v68_at, val_main_call4_v1_apply, val_main_call4_v0_apply,
    val_main_cst_18_apply]
  rfl

/-- `%71` at `(i, k)`: the weight where valid, else zero. -/
private theorem v71_at (i : Fin 65536) (k : Fin 1024) :
    val_main_v71 (F := Ideal) x0 x1 (ix2 i k)
      = Scalar.select (rValid (fun k => val_main_v47 (F := Ideal) x0 x1 (ix2 i k)) k)
          (rE (fun k => val_main_v47 (F := Ideal) x0 x1 (ix2 i k)) k) zeroW := by
  rw [val_main_v71_apply, v49_at, v68_at, val_main_call5_v1_apply, val_main_call5_v0_apply, val_main_cst_20_apply]
  rfl

/-- A sum over a rank-1 shape's indices is the sum over the coordinate. -/
private theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The loss of row `i` is the row loss over that row's weighted distances and same-class mask. -/
theorem ref_row (i : Fin 65536) :
    val_main_v75 (F := Ideal) x0 x1 x2 (ix1 i)
      = refRow (fun k => val_main_v47 (F := Ideal) x0 x1 (ix2 i k)) (fun k => val_main_v54 (F := Ideal) x1 x2 (ix2 i k)) := by
  have e70 : ∀ k : Fin 1024, idx_main_v70 (ix1 i) k = ix2 i k := fun k =>
    funext fun a => Fin.ext (by match a with | ⟨0, _⟩ => rfl | ⟨1, _⟩ => rfl)
  have e72 : ∀ k : Fin 1024, idx_main_v72 (ix1 i) k = ix2 i k := fun k =>
    funext fun a => Fin.ext (by match a with | ⟨0, _⟩ => rfl | ⟨1, _⟩ => rfl)
  rw [refRow_eq, val_main_v75_apply, val_main_v74_apply, val_main_v73_apply, val_main_v70_apply, val_main_v72_apply,
    val_main_cst_19_apply, val_main_cst_21_apply]
  simp only [e70, e72, v69_at, v71_at]
  rw [Ideal.hostNegf_def, Ideal.negf_def, Ideal.hostUnary_log_def, Ideal.hostDivf_def, Ideal.ofBits_def]

/-- The weighted distance of row `i` to center `k`: from the row, the center's row of `%9`, and the weight `%38`
    selected where the row's cluster is `k`. -/
theorem ref_dist (i : Fin 65536) (k : Fin 1024) :
    val_main_v47 (F := Ideal) x0 x1 (ix2 i k)
      = refDist (fun j => x0 (ix2 i j)) (fun j => val_main_v9 (F := Ideal) x0 x1 (ix2 k j))
          (Scalar.select (IntOp.cmpi .eq (x1 (ix1 i)) (BitVec.ofNat 32 k.val)) (val_main_v38 (F := Ideal) x1 (ix1 k)) oneW) := by
  have e19 : ∀ j : Fin 128, idx_main_v19 (idx_main_v20 (idx_main_v24 (ix2 i k))) j = ix2 i j := fun j =>
    funext fun a => Fin.ext (by match a with | ⟨0, _⟩ => rfl | ⟨1, _⟩ => rfl)
  have e22 : ∀ j : Fin 128, idx_main_v22 (idx_main_v23 (idx_main_v25 (ix2 i k))) j = ix2 k j := fun j =>
    funext fun a => Fin.ext (by match a with | ⟨0, _⟩ => rfl | ⟨1, _⟩ => rfl)
  have el : ∀ j : Fin 128, lidx_main_v28 (ix2 i k) j = ix2 i j := fun j =>
    funext fun a => Fin.ext (by match a with | ⟨0, _⟩ => rfl | ⟨1, _⟩ => rfl)
  have er : ∀ j : Fin 128, idx_main_v27 (ridx_main_v28 (ix2 i k) j) = ix2 k j := fun j =>
    funext fun a => Fin.ext (by match a with | ⟨0, _⟩ => rfl | ⟨1, _⟩ => rfl)
  have e39 : idx_main_v39 (idx_main_v42 (ix2 i k)) = ix1 i :=
    funext fun a => Fin.ext (by match a with | ⟨0, _⟩ => rfl)
  have e45 : idx_main_v45 (idx_main_call1_v0 (ix2 i k)) = ix1 k :=
    funext fun a => Fin.ext (by match a with | ⟨0, _⟩ => rfl)
  rw [val_main_v47_apply, val_main_v31_apply, val_main_v26_apply, val_main_v24_apply, val_main_v20_apply,
    val_main_v19_apply, val_main_v25_apply, val_main_v23_apply, val_main_v22_apply, val_main_v30_apply,
    val_main_v29_apply, val_main_v28_apply, val_main_v46_apply, val_main_v44_apply, val_main_v42_apply,
    val_main_v39_apply, val_main_v43_apply, val_main_v41_apply, val_main_v40_apply, val_main_call1_v0_apply,
    val_main_v45_apply, val_main_call1_v1_apply, e39, e45]
  simp only [val_main_v18_apply, val_main_v21_apply, val_main_v27_apply, e19, e22, el, er]
  rfl

/-- The same-class mask of row `i` and center `k`. -/
theorem ref_same (i : Fin 65536) (k : Fin 1024) :
    val_main_v54 (F := Ideal) x1 x2 (ix2 i k) = IntOp.cmpi .eq (val_main_v17 (F := Ideal) x1 x2 (ix1 k)) (x2 (ix1 i)) := by
  have e1 : idx_main_v50 (idx_main_v52 (ix2 i k)) = ix1 k := funext fun a => Fin.ext (by match a with | ⟨0, _⟩ => rfl)
  have e2 : idx_main_v51 (idx_main_v53 (ix2 i k)) = ix1 i := funext fun a => Fin.ext (by match a with | ⟨0, _⟩ => rfl)
  rw [val_main_v54_apply, val_main_v52_apply, val_main_v50_apply, val_main_v53_apply, val_main_v51_apply, e1, e2]

/-- The result: the sum of the rows' losses over the literal `65536.0`. -/
theorem ref_total (z : S_.Idx) :
    val_main_v77 (F := Ideal) x0 x1 x2 z
      = Ideal.div (zeroW + ∑ i : Fin 65536, val_main_v75 (F := Ideal) x0 x1 x2 (ix1 i)) nW := by
  rw [val_main_v77_apply, val_main_v76_apply, sum_idx1]
  rfl

end Cert.ReferenceIdeal.RefValue

end
-- ==== Proof.Consts.lean ====
/-
  The values of the float literals the two programs spell, read once: the infinities, zero, 1, 2, 1/2, 32, -16, 65536,
  and the threshold ε = 8589935 / 2^33 (the binary32 nearest to 0.001) with its rescaled twin -16 ε.
-/
import proofs.«429627_j49503793054560_2_alg».proof.Proof.Spec

noncomputable section

namespace Cert.Nca

open Idealize.ShloMosaic

theorem negInfW_eq : negInfW = ⊥ := by
  simp [Ideal.ofBits, Ideal.ieee]

theorem posInfW_eq : posInfW = ⊤ := by
  simp [Ideal.ofBits, Ideal.ieee]

theorem zeroW_eq : zeroW = 0 := by
  simp [Ideal.ofBits, Ideal.ieee]

theorem oneW_eq : oneW = ((1 : ℝ) : EReal) := by
  simp [Ideal.ofBits, Ideal.ieee, -EReal.coe_mul]; norm_num

theorem twoW_eq : twoW = ((2 : ℝ) : EReal) := by
  simp [Ideal.ofBits, Ideal.ieee, -EReal.coe_mul]; norm_num

theorem halfW_eq : halfW = ((1 / 2 : ℝ) : EReal) := by
  simp [Ideal.ofBits, Ideal.ieee, -EReal.coe_mul]; norm_num

theorem w32W_eq : w32W = ((32 : ℝ) : EReal) := by
  simp [Ideal.ofBits, Ideal.ieee, -EReal.coe_mul]; norm_num

theorem m16W_eq : m16W = ((-16 : ℝ) : EReal) := by
  simp [Ideal.ofBits, Ideal.ieee, -EReal.coe_mul]; norm_num

theorem nW_eq : nW = ((65536 : ℝ) : EReal) := by
  simp [Ideal.ofBits, Ideal.ieee, -EReal.coe_mul]; norm_num

/-- The threshold as a real. -/
def eps : ℝ := 8589935 / 2 ^ 33

theorem eps_pos : 0 < eps := by unfold eps; norm_num

theorem epsW_eq : epsW = ((eps : ℝ) : EReal) := by
  unfold eps
  simp [Ideal.ofBits, Ideal.ieee, -EReal.coe_mul]; norm_num

theorem m16epsW_eq : m16epsW = ((-16 * eps : ℝ) : EReal) := by
  unfold eps
  simp [Ideal.ofBits, Ideal.ieee, -EReal.coe_mul]; norm_num

end Cert.Nca

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.PreFacts.lean ====
/-
  What the precondition gives: every input entry is a real number and every cluster has a member, so every cluster's
  size is a positive real, every center coordinate (a real sum over a positive real) is real, and every cluster weight is real.
-/
import proofs.«429627_j49503793054560_2_alg».proof.Pre_finite_inputs
import proofs.«429627_j49503793054560_2_alg».proof.Proof.Gen.Pre_finite_inputs
import proofs.«429627_j49503793054560_2_alg».proof.Proof.RefRead
import proofs.«429627_j49503793054560_2_alg».proof.Proof.Spec
import proofs.«429627_j49503793054560_2_alg».proof.Proof.Consts
import proofs.«429627_j49503793054560_2_alg».proof.Proof.LibIndexing
import Idealize.ShloMosaic.Lib.ValueIdx
import Idealize.ShloMosaic.Lib.ReduceAll
import Idealize.ShloMosaic.Lib.Affine
import Idealize.ShloMosaic.PureOps.Ideal.Laws

noncomputable section

namespace Cert.ReferenceIdeal.PreFacts

open Cert.ReferenceIdeal Cert.ReferenceIdeal.Read Idealize.ShloMosaic Idealize.ShloMosaic.ValueIdx Cert.Nca

variable (x0 : (⟨S65536x128, .f32⟩ : BufTy).Contents (Elt Ideal)) (x1 x2 : (⟨S65536, .i32⟩ : BufTy).Contents (Elt Ideal))

/-- The scalar shape has one index. -/
private local instance : Subsingleton (⟨0, ![]⟩ : Shape).Idx := ⟨fun a b => funext fun d => d.elim0⟩

/-- An extended real whose absolute value is below `⊤` is a real number. -/
private theorem real_of_abs_lt_top (x : EReal) (h : max x (-x) < ⊤) : ∃ r : ℝ, x = ((r : ℝ) : EReal) := by
  induction x using EReal.rec with
  | bot => simp at h
  | coe r => exact ⟨r, rfl⟩
  | top => simp at h

/-- The comparison "less than" that came out true. -/
private theorem lt_of_cmp_olt {x y : EReal} (h : Ideal.cmp .olt x y = 1#1) : x < y := by
  by_contra hn
  simp [Ideal.cmp, hn] at h

/-- The comparison "greater than" that came out true. -/
private theorem lt_of_cmp_ogt {x y : EReal} (h : Ideal.cmp .ogt x y = 1#1) : y < x := by
  by_contra hn
  simp [Ideal.cmp, hn] at h

/-- A finite sum of real numbers is a real number. -/
private theorem sum_real {ι : Type} (s : Finset ι) (f : ι → EReal) (hf : ∀ e ∈ s, ∃ r : ℝ, f e = ((r : ℝ) : EReal)) :
    ∃ r : ℝ, ∑ e ∈ s, f e = ((r : ℝ) : EReal) := by
  classical
  induction s using Finset.induction_on with
  | empty => exact ⟨0, by simp⟩
  | insert a s ha ih =>
    obtain ⟨r1, h1⟩ := hf a (Finset.mem_insert_self a s)
    obtain ⟨r2, h2⟩ := ih (fun e he => hf e (Finset.mem_insert_of_mem he))
    exact ⟨r1 + r2, by rw [Finset.sum_insert ha, h1, h2, EReal.coe_add]⟩

/-- Under the precondition every input entry is a real number. -/
theorem inputs_real (hpre : Cert.Pre_finite_inputs.fn (F := Ideal) x0 x1 x2 = fun _ => 1#1) (i : Fin 65536) (j : Fin 128) :
    ∃ r : ℝ, x0 (ix2 i j) = ((r : ℝ) : EReal) := by
  have h := congrFun hpre ValueIdx.ix0
  dsimp only [Cert.Pre_finite_inputs.fn] at h
  have h1 := (IntOp.andi_eq_one.1 h).1
  have h2 := Host.reduce_andi_all _ _ _ _ _ h1 (ix2 i j)
  have h3 : Ideal.cmp .olt (max (x0 (ix2 i j)) (-(x0 (ix2 i j)))) posInfW = 1#1 := h2
  have h4 := lt_of_cmp_olt h3
  rw [posInfW_eq] at h4
  exact real_of_abs_lt_top _ h4

/-- The size of cluster `k` (`%3`): zero plus a one for every row whose cluster id is `k`. -/
private theorem sizes_eq (k : Fin 1024) :
    val_main_v3 (F := Ideal) x1 (ix1 k)
      = zeroW + ∑ e ∈ Finset.univ.filter (fun e : Fin 65536 => (x1 (ix1 e)).toInt = (k.val : Int)), oneW := by
  have hv2 : ∀ e : Fin 65536, val_main_v2 (F := Ideal) x1 (ix2 e 0) = x1 (ix1 e) := fun e =>
    (val_main_v2_apply x1 _).trans (congrArg x1 (funext fun a => Fin.ext (by match a with | ⟨0, _⟩ => rfl)))
  have hv0 : ∀ e : Fin 65536, val_main_v0 (F := Ideal) (ix1 e) = oneW := fun e => rfl
  have hv1 : val_main_v1 (F := Ideal) (ix1 k) = zeroW := rfl
  unfold val_main_v3
  refine (Cert.LibIndexing.scatterAdd_vec_apply (N := 1024) (E := 65536)
    Facts₀.scatter_S1024_S65536x1_S65536_n_0_0_1_wf (val_main_v2 (F := Ideal) x1) (val_main_v1 (F := Ideal))
    (val_main_v0 (F := Ideal)) k).trans ?_
  simp only [hv2, hv0, hv1]

/-- Every cluster's size is a real number. -/
private theorem sizes_real (k : Fin 1024) : ∃ r : ℝ, val_main_v3 (F := Ideal) x1 (ix1 k) = ((r : ℝ) : EReal) := by
  obtain ⟨r, hr⟩ := sum_real (Finset.univ.filter (fun e : Fin 65536 => (x1 (ix1 e)).toInt = (k.val : Int)))
    (fun _ => oneW) (fun _ _ => ⟨1, oneW_eq⟩)
  exact ⟨0 + r, by rw [sizes_eq, hr, zeroW_eq, EReal.coe_add, EReal.coe_zero]⟩

/-- The precondition's cluster sizes are the reference's `%3`: the same scatter-add of ones into zeros. -/
private theorem sizes_pre_eq :
    Host.scatterAdd (F := Ideal) Cert.Pre_finite_inputs.scatter_S1024_S65536x1_S65536_n_0_0_1
      (broadcastInDim Cert.Pre_finite_inputs.S1024 ![] Cert.Pre_finite_inputs.Facts.bcast_S_S1024
        (constant (F := Ideal) Cert.Pre_finite_inputs.S_ FTy.f32 0x00000000#32))
      (broadcastInDim Cert.Pre_finite_inputs.S65536x1 ![0] Cert.Pre_finite_inputs.Facts.bcast_S65536_S65536x1_0 x1)
      (broadcastInDim Cert.Pre_finite_inputs.S65536 ![] Cert.Pre_finite_inputs.Facts.bcast_S_S65536
        (constant (F := Ideal) Cert.Pre_finite_inputs.S_ FTy.f32 0x3F800000#32))
    = val_main_v3 (F := Ideal) x1 := rfl

/-- Under the precondition every cluster has a member: its size is above zero. -/
private theorem sizes_pos (hpre : Cert.Pre_finite_inputs.fn (F := Ideal) x0 x1 x2 = fun _ => 1#1) (k : Fin 1024) :
    (0 : EReal) < val_main_v3 (F := Ideal) x1 (ix1 k) := by
  have h := congrFun hpre ValueIdx.ix0
  dsimp only [Cert.Pre_finite_inputs.fn] at h
  have h1 := (IntOp.andi_eq_one.1 h).2
  have h2 := Host.reduce_andi_all _ _ _ _ _ h1 (ix1 k)
  rw [cmpf_apply, Ideal.cmpf_def, sizes_pre_eq] at h2
  have h3 : zeroW < val_main_v3 (F := Ideal) x1 (ix1 k) := lt_of_cmp_ogt h2
  rwa [zeroW_eq] at h3

/-- The sum of cluster `k`'s rows at coordinate `j` (`%6`): zero plus the entry of every row whose cluster id is `k`. -/
private theorem segsum_eq (k : Fin 1024) (j : Fin 128) :
    val_main_v6 (F := Ideal) x0 x1 (ix2 k j)
      = zeroW + ∑ e ∈ Finset.univ.filter (fun e : Fin 65536 => (x1 (ix1 e)).toInt = (k.val : Int)), x0 (ix2 e j) := by
  have hv5 : ∀ e : Fin 65536, val_main_v5 (F := Ideal) x1 (ix2 e 0) = x1 (ix1 e) := fun e =>
    (val_main_v5_apply x1 _).trans (congrArg x1 (funext fun a => Fin.ext (by match a with | ⟨0, _⟩ => rfl)))
  have hv4 : val_main_v4 (F := Ideal) (ix2 k j) = zeroW := rfl
  unfold val_main_v6
  refine (Cert.LibIndexing.scatterAdd_rows_apply (N := 1024) (D := 128) (E := 65536)
    Facts₀.scatter_S1024x128_S65536x1_S65536x128_1_0_0_1_wf (val_main_v5 (F := Ideal) x1) (val_main_v4 (F := Ideal))
    x0 k j).trans ?_
  simp only [hv5, hv4]

/-- Under the precondition every coordinate of every center (`%9`) is a real number. -/
theorem centers_real (hpre : Cert.Pre_finite_inputs.fn (F := Ideal) x0 x1 x2 = fun _ => 1#1) (k : Fin 1024) (j : Fin 128) :
    ∃ r : ℝ, val_main_v9 (F := Ideal) x0 x1 (ix2 k j) = ((r : ℝ) : EReal) := by
  -- the divisor is the cluster's size, broadcast along the row
  have hden : val_main_v8 (F := Ideal) x1 (ix2 k j) = val_main_v3 (F := Ideal) x1 (ix1 k) :=
    ((val_main_v8_apply x1 _).trans (val_main_v7_apply x1 _)).trans
      (congrArg (val_main_v3 (F := Ideal) x1) (funext fun a => Fin.ext (by match a with | ⟨0, _⟩ => rfl)))
  -- the dividend is a sum of real entries
  obtain ⟨a, ha⟩ := sum_real (Finset.univ.filter (fun e : Fin 65536 => (x1 (ix1 e)).toInt = (k.val : Int)))
    (fun e => x0 (ix2 e j)) (fun e _ => inputs_real x0 x1 x2 hpre e j)
  have hnum : val_main_v6 (F := Ideal) x0 x1 (ix2 k j) = (((0 + a : ℝ)) : EReal) := by
    rw [segsum_eq, ha, zeroW_eq, EReal.coe_add, EReal.coe_zero]
  obtain ⟨s, hs⟩ := sizes_real x1 k
  have hpos := sizes_pos x0 x1 x2 hpre k
  rw [hs] at hpos
  have hs0 : s ≠ 0 := by
    have : (0 : ℝ) < s := by exact_mod_cast hpos
    exact this.ne'
  refine ⟨(0 + a) * (1 / s), ?_⟩
  rw [val_main_v9_apply, Ideal.hostDivf_def, hden, hs, hnum, Ideal.div_coe hs0, EReal.coe_mul]

/-- Every cluster's weight (`%38`) is a real number. -/
theorem weights_real (k : Fin 1024) :
    ∃ r : ℝ, val_main_v38 (F := Ideal) x1 (ix1 k) = ((r : ℝ) : EReal) := by
  obtain ⟨s, hs⟩ := sizes_real x1 k
  have h32 : val_main_v32 (F := Ideal) (ix1 k) = oneW := rfl
  have h34 : val_main_v34 (F := Ideal) (ix1 k) = oneW := rfl
  have hc : val_main_call0_v1 (F := Ideal) (ix1 k) = oneW := rfl
  rw [val_main_v38_apply, val_main_v33_apply, val_main_v37_apply, val_main_v36_apply, val_main_v35_apply, h32, h34, hc,
    hs, oneW_eq]
  simp only [Ideal.cmpf_def, Ideal.hostDivf_def, Ideal.subf_def, Ideal.mulf_def]
  by_cases h1 : Ideal.cmp .ogt ((s : ℝ) : EReal) ((1 : ℝ) : EReal) = 1#1
  · -- more than one member: the weight is `(s / (s - 1))²`, with `s - 1` a nonzero real
    rw [h1, select_one]
    have hlt : (1 : ℝ) < s := by exact_mod_cast lt_of_cmp_ogt h1
    have hne : s - 1 ≠ 0 := sub_ne_zero.2 hlt.ne'
    refine ⟨(s * (1 / (s - 1))) * (s * (1 / (s - 1))), ?_⟩
    rw [← EReal.coe_sub, Ideal.div_coe hne, ← EReal.coe_mul, ← EReal.coe_mul]
  · -- otherwise the weight is the literal one
    rw [eq_zero_of_ne_one h1, select_zero]
    exact ⟨1, rfl⟩

end Cert.ReferenceIdeal.PreFacts

end
-- ==== Proof.RowMath.lean ====
/-
  The two arrangements of the row loss agree on REAL weighted distances.

  With `V` the set of valid centers (`r k > ε`, the same set as `-16 r k < -16 ε`): if `V` is empty both selected
  sums are sums of zeros, so the two quotients are one term. Otherwise the kernel's extremes are `-16 ·` the
  reference's swapped ones (`x ↦ -16 x` reverses order), its midpoint is `-16 ·` the reference's, and
  `-16 r k - (-16 · base) = -16 (r k - base)`, so the exponentials agree entry by entry on `V`, which is all the
  selections keep. Finally `0 - x = -x`.
-/
import proofs.«429627_j49503793054560_2_alg».proof.Proof.Spec
import proofs.«429627_j49503793054560_2_alg».proof.Proof.Consts
import Mathlib.Order.MinMax
import Mathlib.Data.Finset.Fold
import Mathlib.Data.EReal.Basic
import Mathlib.Data.EReal.Operations
import Mathlib.Data.EReal.Inv

noncomputable section

namespace Cert.Nca

open Idealize.ShloMosaic

/-- Selecting on a decided proposition's bit is the `if` on the proposition. -/
private theorem select_ofBool {α : Type} (p : Prop) [Decidable p] (a b : α) :
    Scalar.select (BitVec.ofBool (decide p)) a b = if p then a else b := by
  unfold Scalar.select
  by_cases h : p <;> simp [h]

/-- Selecting on the conjunction of two bits is the nested selection. -/
private theorem select_andi {α : Type} (v s : BitVec 1) (a b : α) :
    Scalar.select (IntOp.andi v s) a b = Scalar.select s (Scalar.select v a b) b := by
  unfold Scalar.select IntOp.andi
  rcases BitVec.eq_zero_or_eq_one v with rfl | rfl <;> rcases BitVec.eq_zero_or_eq_one s with rfl | rfl <;> simp

/-- `x > y` on reals, as a bit. -/
private theorem cmp_ogt_coe (x y : ℝ) :
    Ideal.cmp .ogt (x : EReal) (y : EReal) = BitVec.ofBool (decide (y < x)) := by
  simp only [Ideal.cmp, EReal.coe_lt_coe_iff]

/-- `-16 x < -16 y` is `x > y`: the two validity tests are one. -/
private theorem cmp_olt_scaled (x y : ℝ) :
    Ideal.cmp .olt ((-16 * x : ℝ) : EReal) ((-16 * y : ℝ) : EReal) = BitVec.ofBool (decide (y < x)) := by
  simp only [Ideal.cmp, EReal.coe_lt_coe_iff]
  congr 1
  apply decide_eq_decide.mpr
  constructor <;> intro h <;> linarith

/-- Multiplication by `-16` on the extended reals. -/
private def scale (x : EReal) : EReal := ((-16 : ℝ) : EReal) * x

/-- `x ↦ -16 x` reverses order, sends `⊤` to `⊥` and `⊥` to `⊤`, and is real multiplication on reals. -/
private theorem scale_antitone : Antitone scale := by
  intro a b hab
  have h := EReal.mul_le_mul_of_nonpos_right hab (c := ((-16 : ℝ) : EReal)) (by exact_mod_cast (by norm_num : (-16 : ℝ) ≤ 0))
  simpa [scale, mul_comm] using h

private theorem scale_top : scale ⊤ = ⊥ := EReal.coe_mul_top_of_neg (by norm_num)
private theorem scale_bot : scale ⊥ = ⊤ := EReal.coe_mul_bot_of_neg (by norm_num)
private theorem scale_coe (x : ℝ) : scale (x : EReal) = ((-16 * x : ℝ) : EReal) := by
  simp [scale, EReal.coe_mul]

/-- The masked maximum of the rescaled distances is the rescaled masked minimum of the distances. -/
private theorem fold_max_scaled (r : Fin 1024 → ℝ) (V : Fin 1024 → Prop) [DecidablePred V] :
    Finset.fold max ⊥ (fun k => if V k then ((-16 * r k : ℝ) : EReal) else ⊥) Finset.univ
      = scale (Finset.fold min ⊤ (fun k => if V k then ((r k : ℝ) : EReal) else ⊤) Finset.univ) := by
  have hf : (fun k => if V k then ((-16 * r k : ℝ) : EReal) else ⊥)
      = fun k => scale (if V k then ((r k : ℝ) : EReal) else ⊤) := by
    funext k
    split_ifs
    · exact (scale_coe _).symm
    · exact scale_top.symm
  rw [hf, ← scale_top]
  exact Finset.fold_hom (op := min) (op' := max) (m := scale) (fun x y => scale_antitone.map_min)

/-- The masked minimum of the rescaled distances is the rescaled masked maximum of the distances. -/
private theorem fold_min_scaled (r : Fin 1024 → ℝ) (V : Fin 1024 → Prop) [DecidablePred V] :
    Finset.fold min ⊤ (fun k => if V k then ((-16 * r k : ℝ) : EReal) else ⊤) Finset.univ
      = scale (Finset.fold max ⊥ (fun k => if V k then ((r k : ℝ) : EReal) else ⊥) Finset.univ) := by
  have hf : (fun k => if V k then ((-16 * r k : ℝ) : EReal) else ⊤)
      = fun k => scale (if V k then ((r k : ℝ) : EReal) else ⊥) := by
    funext k
    split_ifs
    · exact (scale_coe _).symm
    · exact scale_bot.symm
  rw [hf, ← scale_bot]
  exact Finset.fold_hom (op := max) (op' := min) (m := scale) (fun x y => scale_antitone.map_max)

/-- With a valid center, the masked maximum is a real. -/
private theorem fold_max_real (r : Fin 1024 → ℝ) (V : Fin 1024 → Prop) [DecidablePred V] (k0 : Fin 1024) (h0 : V k0) :
    ∃ M : ℝ, Finset.fold max ⊥ (fun k => if V k then ((r k : ℝ) : EReal) else ⊥) Finset.univ = (M : EReal) := by
  set D := Finset.fold max ⊥ (fun k => if V k then ((r k : ℝ) : EReal) else ⊥) Finset.univ with hD
  have h1 : D ≠ ⊤ := by
    apply ne_of_lt
    rw [hD, Finset.fold_max_lt]
    refine ⟨bot_lt_top, fun x _ => ?_⟩
    split_ifs
    · exact EReal.coe_lt_top _
    · exact bot_lt_top
  have h2 : D ≠ ⊥ := by
    apply ne_of_gt
    rw [hD, Finset.lt_fold_max]
    refine Or.inr ⟨k0, Finset.mem_univ _, ?_⟩
    rw [if_pos h0]
    exact EReal.bot_lt_coe _
  exact ⟨D.toReal, (EReal.coe_toReal h1 h2).symm⟩

/-- With a valid center, the masked minimum is a real. -/
private theorem fold_min_real (r : Fin 1024 → ℝ) (V : Fin 1024 → Prop) [DecidablePred V] (k0 : Fin 1024) (h0 : V k0) :
    ∃ m : ℝ, Finset.fold min ⊤ (fun k => if V k then ((r k : ℝ) : EReal) else ⊤) Finset.univ = (m : EReal) := by
  set D := Finset.fold min ⊤ (fun k => if V k then ((r k : ℝ) : EReal) else ⊤) Finset.univ with hD
  have h1 : D ≠ ⊥ := by
    apply ne_of_gt
    rw [hD, Finset.lt_fold_min]
    refine ⟨bot_lt_top, fun x _ => ?_⟩
    split_ifs
    · exact EReal.bot_lt_coe _
    · exact bot_lt_top
  have h2 : D ≠ ⊤ := by
    apply ne_of_lt
    rw [hD, Finset.fold_min_lt]
    refine Or.inr ⟨k0, Finset.mem_univ _, ?_⟩
    rw [if_pos h0]
    exact EReal.coe_lt_top _
  exact ⟨D.toReal, (EReal.coe_toReal h2 h1).symm⟩

/-- Two selected quotients whose exponents agree on the valid set are one term; `0 - x = -x` and `0 + x = x`. -/
private theorem quot_congr (V : Fin 1024 → Prop) [DecidablePred V] (same : Fin 1024 → BitVec 1) (A B : Fin 1024 → EReal)
    (h : ∀ k, V k → A k = B k) :
    0 - Ideal.log (Ideal.div (∑ x, Scalar.select (same x) (if V x then Ideal.exp (A x) else 0) 0)
        (∑ x, if V x then Ideal.exp (A x) else 0))
      = -Ideal.log (Ideal.div (0 + ∑ x, Scalar.select (same x) (if V x then Ideal.exp (B x) else 0) 0)
        (0 + ∑ x, if V x then Ideal.exp (B x) else 0)) := by
  have hs : ∀ x, (if V x then Ideal.exp (A x) else 0) = (if V x then Ideal.exp (B x) else 0) := by
    intro x
    split_ifs with hx
    · rw [h x hx]
    · rfl
  simp only [hs, zero_add, sub_eq_add_neg]

/-- On real weighted distances `r`, the loss computed from `s = -16 · r` in the kernel's arrangement is the loss computed
    from `r` in the reference's. -/
theorem row_eq (r : Fin 1024 → ℝ) (same : Fin 1024 → BitVec 1) :
    kerRow (fun k => ((-16 * r k : ℝ) : EReal)) same = refRow (fun k => ((r k : ℝ) : EReal)) same := by
  classical
  unfold kerRow refRow
  simp only [negInfW_eq, posInfW_eq, zeroW_eq, halfW_eq, m16W_eq, epsW_eq, m16epsW_eq, cmp_ogt_coe, cmp_olt_scaled,
    select_andi, select_ofBool]
  refine quot_congr (fun k => eps < r k) same _ _ (fun k hk => ?_)
  obtain ⟨M, hM⟩ := fold_max_real r (fun k => eps < r k) k hk
  obtain ⟨m, hm⟩ := fold_min_real r (fun k => eps < r k) k hk
  rw [fold_max_scaled, fold_min_scaled, hM, hm, scale_coe, scale_coe]
  simp only [← EReal.coe_mul, ← EReal.coe_add, ← EReal.coe_sub]
  congr 1
  ring

end Cert.Nca

end
-- ==== Proof.DistMath.lean ====
/-
  The two arrangements of the weighted squared distance agree on REAL data: with `xx = Σ x²`, `cc = Σ c²`,
  `xc = Σ x c` real, the reference's `((xx + cc) - 2 xc) · w` is the real `r = (xx + cc - 2 xc) w`, and the kernel's
  `((Σ x (32 c) + (-16) xx) + (-16) cc) · w` is `-16 r` (distributivity, which holds on the reals).
-/
import proofs.«429627_j49503793054560_2_alg».proof.Proof.Spec
import proofs.«429627_j49503793054560_2_alg».proof.Proof.Consts

noncomputable section

namespace Cert.Nca

open Idealize.ShloMosaic

/-- The coercion of the reals into the extended reals commutes with finite sums. -/
private theorem coe_finset_sum {ι : Type} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- On a real row, a real center and a real weight the reference's distance is a real `r` and the kernel's rescaled one is `-16 · r`. -/
theorem dist_eq (x c : Fin 128 → ℝ) (w : ℝ) :
    ∃ r : ℝ, refDist (fun j => ((x j : ℝ) : EReal)) (fun j => ((c j : ℝ) : EReal)) ((w : ℝ) : EReal) = ((r : ℝ) : EReal)
      ∧ kerDist (fun j => ((x j : ℝ) : EReal)) (fun j => ((c j : ℝ) : EReal)) ((w : ℝ) : EReal) = ((-16 * r : ℝ) : EReal) := by
  refine ⟨((∑ j, x j * x j + ∑ j, c j * c j) - 2 * ∑ j, x j * c j) * w, ?_, ?_⟩
  · unfold refDist
    simp only [zeroW_eq, twoW_eq, zero_add, ← EReal.coe_mul, coe_finset_sum, ← EReal.coe_add,
      ← EReal.coe_sub]
  · unfold kerDist
    simp only [zeroW_eq, w32W_eq, m16W_eq, zero_add, ← EReal.coe_mul, coe_finset_sum,
      ← EReal.coe_add]
    -- the real identity: Σ x (32 c) = 32 Σ x c, then distributivity
    have h32 : ∑ j, x j * (32 * c j) = 32 * ∑ j, x j * c j := by
      rw [Finset.mul_sum]
      exact Finset.sum_congr rfl (fun j _ => by ring)
    rw [h32]
    exact congrArg _ (by ring)

end Cert.Nca

end
-- ==== Proof.RowBridge.lean ====
/-
  Row `i = 1024 t + p` of the kernel's loss column is the reference's loss of row `i`.

  The body's row is the row loss in the kernel's arrangement over the rescaled distances it computes from the blocks;
  the blocks are the inputs' row, the prescaled centers (32 c), the prescaled norms (-16 |c|²), the weights, the cluster
  labels and the row's two ids; under the precondition the row, the centers and the weights are real, so each rescaled
  distance is -16 times the reference's real weighted distance, the masks are the same, and the two arrangements agree.
-/
import proofs.«429627_j49503793054560_2_alg».proof.Proof.KerBlocks
import proofs.«429627_j49503793054560_2_alg».proof.Proof.KerRow
import proofs.«429627_j49503793054560_2_alg».proof.Proof.KerHost
import proofs.«429627_j49503793054560_2_alg».proof.Proof.RefRow
import proofs.«429627_j49503793054560_2_alg».proof.Proof.PreFacts
import proofs.«429627_j49503793054560_2_alg».proof.Proof.RowMath
import proofs.«429627_j49503793054560_2_alg».proof.Proof.DistMath
import proofs.«429627_j49503793054560_2_alg».proof.Proof.Consts

noncomputable section

namespace Cert.KernelIdeal.KerValue

open Cert.KernelIdeal Cert.KernelIdeal.Gen Idealize.ShloMosaic Idealize.ShloMosaic.TcCoe Idealize.SL.Sem Idealize.ShloMosaic.ValueIdx Cert.Nca

variable (m : (ℓ : Loc nD τ sig) → Buf (Elt Ideal) ℓ) (c : Dev nD)

/-- Under the precondition, what point `t` stores at row `p` of its loss block is the reference's loss of row `1024 t + p`. -/
theorem row_bridge (hpre : Cert.Pre_finite_inputs.fn (F := Ideal) (X0 m c) (X1 m c) (X2 m c) = fun _ => 1#1)
    (t : Fin cfg0.N) (p : Fin 1024) (i : Fin 65536) (hi : i.val = 1024 * t.val + p.val) :
    rowAt m c t p = Cert.ReferenceIdeal.Read.val_main_v75 (F := Ideal) (X0 m c) (X1 m c) (X2 m c) (ix1 i) := by
  classical
  -- the blocks' entries, as the launched arrays and the reference's stages
  have e0 : ∀ j : Fin 128, (iblk m c 0 t : Vec Ideal S1024x128 .f32) (ix2 p j) = X0 m c (ix2 i j) := fun j =>
    (iblk0_apply m c t p j i hi).trans (congrFun (V_main_arg0 m c) _)
  have e1 : ∀ (j : Fin 128) (k : Fin 1024), (iblk m c 1 t : Vec Ideal S128x1024 .f32) (ix2 j k)
      = w32W * Cert.ReferenceIdeal.Read.val_main_v9 (F := Ideal) (X0 m c) (X1 m c) (ix2 k j) := fun j k =>
    (iblk1_apply m c t j k).trans (V_v29_apply m c j k)
  have e2 : ∀ k : Fin 1024, (iblk m c 2 t : Vec Ideal S1x1024 .f32) (ix2 (0 : Fin 1) k)
      = m16W * (zeroW + ∑ j : Fin 128, Cert.ReferenceIdeal.Read.val_main_v9 (F := Ideal) (X0 m c) (X1 m c) (ix2 k j)
          * Cert.ReferenceIdeal.Read.val_main_v9 (F := Ideal) (X0 m c) (X1 m c) (ix2 k j)) := fun k =>
    (iblk2_apply m c t k).trans (V_v36_apply m c k)
  have e3 : ∀ k : Fin 1024, (iblk m c 3 t : Vec Ideal S1x1024 .f32) (ix2 (0 : Fin 1) k)
      = Cert.ReferenceIdeal.Read.val_main_v38 (F := Ideal) (X1 m c) (ix1 k) := fun k =>
    (iblk3_apply m c t k).trans (V_v35_apply m c k)
  have e4 : ∀ k : Fin 1024, (iblk m c 4 t : Vec Ideal S1x1024 .i32) (ix2 (0 : Fin 1) k)
      = Cert.ReferenceIdeal.Read.val_main_v17 (F := Ideal) (X1 m c) (X2 m c) (ix1 k) := fun k =>
    (iblk4_apply m c t k).trans (V_v34_apply m c k)
  have e5 : (iblk m c 5 t : Vec Ideal S1024x1 .i32) (ix2 p (0 : Fin 1)) = X1 m c (ix1 i) :=
    (iblk5_apply m c t p i hi).trans (V_v32_apply m c i)
  have e6 : (iblk m c 6 t : Vec Ideal S1024x1 .i32) (ix2 p (0 : Fin 1)) = X2 m c (ix1 i) :=
    (iblk6_apply m c t p i hi).trans (V_v33_apply m c i)
  -- the rescaled distance and the mask of the row, from the blocks
  have hd : ∀ k : Fin 1024,
      k0_pay2 (F := Ideal) (iblk m c 0 t) (iblk m c 1 t) (iblk m c 2 t) (iblk m c 5 t) (iblk m c 3 t) (ix2 p k)
        = kerDist (fun j => X0 m c (ix2 i j))
            (fun j => Cert.ReferenceIdeal.Read.val_main_v9 (F := Ideal) (X0 m c) (X1 m c) (ix2 k j))
            (Scalar.select (IntOp.cmpi .eq (X1 m c (ix1 i)) (BitVec.ofNat 32 k.val))
              (Cert.ReferenceIdeal.Read.val_main_v38 (F := Ideal) (X1 m c) (ix1 k)) oneW) := by
    intro k
    refine (ker_dist (iblk m c 0 t) (iblk m c 1 t) (iblk m c 2 t) (iblk m c 3 t) (iblk m c 5 t) p k).trans ?_
    simp only [e0, e1, e2, e3, e5]
    rfl
  have hs : ∀ k : Fin 1024,
      k0_pay4 (F := Ideal) (iblk m c 6 t) (iblk m c 4 t) (ix2 p k)
        = IntOp.cmpi .eq (Cert.ReferenceIdeal.Read.val_main_v17 (F := Ideal) (X1 m c) (X2 m c) (ix1 k)) (X2 m c (ix1 i)) := by
    intro k
    refine (ker_same (iblk m c 6 t) (iblk m c 4 t) p k).trans ?_
    rw [e4, e6]
  have hker : rowAt m c t p
      = kerRow (fun k => kerDist (fun j => X0 m c (ix2 i j))
            (fun j => Cert.ReferenceIdeal.Read.val_main_v9 (F := Ideal) (X0 m c) (X1 m c) (ix2 k j))
            (Scalar.select (IntOp.cmpi .eq (X1 m c (ix1 i)) (BitVec.ofNat 32 k.val))
              (Cert.ReferenceIdeal.Read.val_main_v38 (F := Ideal) (X1 m c) (ix1 k)) oneW))
          (fun k => IntOp.cmpi .eq (Cert.ReferenceIdeal.Read.val_main_v17 (F := Ideal) (X1 m c) (X2 m c) (ix1 k)) (X2 m c (ix1 i))) :=
    ((congrFun (out_eq (iblk m c 0 t) (iblk m c 1 t) (iblk m c 2 t) (iblk m c 3 t) (iblk m c 4 t) (iblk m c 5 t) (iblk m c 6 t))
        (ix2 p (0 : Fin 1))).trans
      (ker_row (iblk m c 0 t) (iblk m c 1 t) (iblk m c 2 t) (iblk m c 3 t) (iblk m c 4 t) (iblk m c 5 t) (iblk m c 6 t) p)).trans
      (congrArg₂ kerRow (funext hd) (funext hs))
  -- the reference's row, over the same data
  have href : Cert.ReferenceIdeal.Read.val_main_v75 (F := Ideal) (X0 m c) (X1 m c) (X2 m c) (ix1 i)
      = refRow (fun k => refDist (fun j => X0 m c (ix2 i j))
            (fun j => Cert.ReferenceIdeal.Read.val_main_v9 (F := Ideal) (X0 m c) (X1 m c) (ix2 k j))
            (Scalar.select (IntOp.cmpi .eq (X1 m c (ix1 i)) (BitVec.ofNat 32 k.val))
              (Cert.ReferenceIdeal.Read.val_main_v38 (F := Ideal) (X1 m c) (ix1 k)) oneW))
          (fun k => IntOp.cmpi .eq (Cert.ReferenceIdeal.Read.val_main_v17 (F := Ideal) (X1 m c) (X2 m c) (ix1 k)) (X2 m c (ix1 i))) :=
    (Cert.ReferenceIdeal.RefValue.ref_row (X0 m c) (X1 m c) (X2 m c) i).trans
      (congrArg₂ refRow (funext fun k => Cert.ReferenceIdeal.RefValue.ref_dist (X0 m c) (X1 m c) i k)
        (funext fun k => Cert.ReferenceIdeal.RefValue.ref_same (X1 m c) (X2 m c) i k))
  -- under the precondition the row, the centers and the weights are real
  choose xr hxr using fun j : Fin 128 => Cert.ReferenceIdeal.PreFacts.inputs_real (X0 m c) (X1 m c) (X2 m c) hpre i j
  choose cr hcr using fun (k : Fin 1024) (j : Fin 128) =>
    Cert.ReferenceIdeal.PreFacts.centers_real (X0 m c) (X1 m c) (X2 m c) hpre k j
  choose wr hwr using fun k : Fin 1024 => Cert.ReferenceIdeal.PreFacts.weights_real (X1 m c) k
  have hw : ∀ k : Fin 1024,
      Scalar.select (IntOp.cmpi .eq (X1 m c (ix1 i)) (BitVec.ofNat 32 k.val))
          (Cert.ReferenceIdeal.Read.val_main_v38 (F := Ideal) (X1 m c) (ix1 k)) oneW
        = (((if IntOp.cmpi .eq (X1 m c (ix1 i)) (BitVec.ofNat 32 k.val) = 1 then wr k else 1 : ℝ)) : EReal) := by
    intro k
    unfold Scalar.select
    rw [hwr k, oneW_eq]
    split_ifs <;> rfl
  -- each rescaled distance is -16 times the reference's real weighted distance
  choose r hr1 hr2 using fun k : Fin 1024 =>
    dist_eq xr (cr k) (if IntOp.cmpi .eq (X1 m c (ix1 i)) (BitVec.ofNat 32 k.val) = 1 then wr k else 1)
  have hkd : ∀ k : Fin 1024, kerDist (fun j => X0 m c (ix2 i j))
        (fun j => Cert.ReferenceIdeal.Read.val_main_v9 (F := Ideal) (X0 m c) (X1 m c) (ix2 k j))
        (Scalar.select (IntOp.cmpi .eq (X1 m c (ix1 i)) (BitVec.ofNat 32 k.val))
          (Cert.ReferenceIdeal.Read.val_main_v38 (F := Ideal) (X1 m c) (ix1 k)) oneW)
      = ((-16 * r k : ℝ) : EReal) := fun k =>
    (congr (congr (congrArg kerDist (funext hxr)) (funext (hcr k))) (hw k)).trans (hr2 k)
  have hrd : ∀ k : Fin 1024, refDist (fun j => X0 m c (ix2 i j))
        (fun j => Cert.ReferenceIdeal.Read.val_main_v9 (F := Ideal) (X0 m c) (X1 m c) (ix2 k j))
        (Scalar.select (IntOp.cmpi .eq (X1 m c (ix1 i)) (BitVec.ofNat 32 k.val))
          (Cert.ReferenceIdeal.Read.val_main_v38 (F := Ideal) (X1 m c) (ix1 k)) oneW)
      = ((r k : ℝ) : EReal) := fun k =>
    (congr (congr (congrArg refDist (funext hxr)) (funext (hcr k))) (hw k)).trans (hr1 k)
  rw [hker, href, funext hkd, funext hrd]
  exact row_eq r _

end Cert.KernelIdeal.KerValue

end
-- ==== Proof.TailMath.lean ====
/-
  The mean the host takes of a one-column array: the host's sum over both axes of a [65536, 1] array, from the zero
  literal, divided by the literal 65536.0, is the quotient of `0 + Σ_i A (i, 0)` by that literal.
-/
import proofs.«429627_j49503793054560_2_alg».proof.Proof.Spec
import Idealize.ShloMosaic.Lib.ValueIdx
import Idealize.ShloMosaic.PureOps.Ideal.Laws

noncomputable section

namespace Cert.Nca

open Idealize.ShloMosaic Idealize.ShloMosaic.ValueIdx

/-- The host's total sum of a one-column array, divided by the literal `65536.0`, read at its one index. -/
theorem mean_read (A : FVec Ideal ⟨2, ![65536, 1]⟩ .f32)
    (h' : (⟨2, ![65536, 1]⟩ : Shape).ReducesTo [0, 1] (⟨0, ![]⟩ : Shape)) (hu : 0 < (⟨0, ![]⟩ : Shape).numel)
    (z : (⟨0, ![]⟩ : Shape).Idx) :
    Host.divf (Host.reduceAdd A (constant (F := Ideal) (⟨0, ![]⟩ : Shape) .f32 0x00000000#32) h' hu)
        (constant (F := Ideal) (⟨0, ![]⟩ : Shape) .f32 0x47800000#32) z
      = Ideal.div (zeroW + ∑ i : Fin 65536, A (ix2 i (0 : Fin 1))) nW := by
  -- the sum over both axes of a one-column array is the sum down its column
  have hsum : (∑ i : (⟨2, ![65536, 1]⟩ : Shape).Idx, (A i : EReal)) = ∑ i : Fin 65536, (A (ix2 i (0 : Fin 1)) : EReal) := by
    rw [sum_idx2]
    exact Finset.sum_congr rfl (fun a _ => Fin.sum_univ_one _)
  show Ideal.div (Ideal.hostReduceAdd h' A (Ideal.ofBits .f32 0x00000000#32) z) (Ideal.ofBits .f32 0x47800000#32) = _
  rw [Ideal.hostReduceAdd_total h' (fun b => b.elim0) A _ z, hsum]

end Cert.Nca

end
-- ==== Proof.Result.lean ====
/-
  Under the precondition the kernel program's result is the reference's: both are the quotient by the literal `65536.0`
  of `0 +` the sum over the 65536 rows of the row's loss, and row by row the kernel's loss column holds the reference's loss.
-/
import proofs.«429627_j49503793054560_2_alg».proof.Proof.KerArray
import proofs.«429627_j49503793054560_2_alg».proof.Proof.RowBridge
import proofs.«429627_j49503793054560_2_alg».proof.Proof.RefRow
import proofs.«429627_j49503793054560_2_alg».proof.Proof.TailMath

noncomputable section

namespace Cert.KernelIdeal.KerValue

open Cert.KernelIdeal Cert.KernelIdeal.Gen Idealize.ShloMosaic Idealize.ShloMosaic.TcCoe Idealize.SL.Sem Idealize.ShloMosaic.ValueIdx Cert.Nca

variable (m : (ℓ : Loc nD τ sig) → Buf (Elt Ideal) ℓ) (c : Dev nD)

/-- Row `i` of the loss column is the reference's loss of row `i`. -/
theorem outArr_row (hpre : Cert.Pre_finite_inputs.fn (F := Ideal) (X0 m c) (X1 m c) (X2 m c) = fun _ => 1#1) (i : Fin 65536) :
    outArr m c (ix2 i (0 : Fin 1)) = Cert.ReferenceIdeal.Read.val_main_v75 (F := Ideal) (X0 m c) (X1 m c) (X2 m c) (ix1 i) := by
  unfold outArr
  exact row_bridge m c hpre (tOf (ix2 i (0 : Fin 1))) (pOf (ix2 i (0 : Fin 1))) i (by
    show i.val = 1024 * (i.val / 1024) + i.val % 1024
    omega)

/-- The kernel program's result is the reference's result term of the same arguments. -/
theorem result_eq (hpre : Cert.Pre_finite_inputs.fn (F := Ideal) (X0 m c) (X1 m c) (X2 m c) = fun _ => 1#1) :
    kerResult m c = Cert.ReferenceIdeal.Read.val_main_v77 (F := Ideal) (X0 m c) (X1 m c) (X2 m c) := by
  funext z
  unfold kerResult
  refine (mean_read (outArr m c) reducesTo_S65536x1_S_d0_1 h_S_ z).trans ?_
  refine Eq.trans ?_ (Cert.ReferenceIdeal.RefValue.ref_total (X0 m c) (X1 m c) (X2 m c) z).symm
  exact congrArg (fun s => Ideal.div (zeroW + s) nW) (Finset.sum_congr rfl fun i _ => outArr_row m c hpre i)

end Cert.KernelIdeal.KerValue

end
-- ==== Proof.lean ====
/-
  The certificate's claims.

  Both frames of the kernel program are the generated frame certificates; the reference's frame is its run with the result
  dropped; the idealization rewrote nothing. The value claim: under the precondition (finite inputs, every cluster
  non-empty) the kernel program ends with the mean over the rows of the per-row loss its region writes, the reference with
  the mean of its per-row loss, and row by row the two losses are one extended real: the kernel works with the distances
  rescaled by -16, which turns the threshold test around, swaps the extremes, rescales the midpoint, and leaves every
  selected exponential unchanged.
-/
import proofs.«429627_j49503793054560_2_alg».proof.Defs
import proofs.«429627_j49503793054560_2_alg».proof.Proof.Gen.Kernel
import proofs.«429627_j49503793054560_2_alg».proof.Proof.Gen.Kernel.Skeleton
import proofs.«429627_j49503793054560_2_alg».proof.Proof.Gen.Kernel.Launch
import proofs.«429627_j49503793054560_2_alg».proof.Proof.Gen.Kernel.Points
import proofs.«429627_j49503793054560_2_alg».proof.Proof.Gen.Kernel.Frame
import proofs.«429627_j49503793054560_2_alg».proof.Proof.Gen.KernelIdeal
import proofs.«429627_j49503793054560_2_alg».proof.Proof.Gen.KernelIdeal.Skeleton
import proofs.«429627_j49503793054560_2_alg».proof.Proof.Gen.KernelIdeal.Launch
import proofs.«429627_j49503793054560_2_alg».proof.Proof.Gen.KernelIdeal.Points
import proofs.«429627_j49503793054560_2_alg».proof.Proof.Gen.KernelIdeal.Frame
import proofs.«429627_j49503793054560_2_alg».proof.Proof.Gen.ReferenceIdeal
import proofs.«429627_j49503793054560_2_alg».proof.Proof.RefRun
import proofs.«429627_j49503793054560_2_alg».proof.Proof.RefRead
import proofs.«429627_j49503793054560_2_alg».proof.Proof.Gen.Pre_finite_inputs
import proofs.«429627_j49503793054560_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both idealized programs end with the same
    result: the reference's result term of the arguments. -/
theorem algebraic : Cert.algebraic_KernelIdeal_ReferenceIdeal := by
  intro m ρ m' ρ' hpre hagree
  refine ⟨fun c => Cert.KernelIdeal.KerValue.kerResult m c, Cert.KernelIdeal.KerValue.ker_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2]
  exact (Cert.KernelIdeal.KerValue.result_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
